-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg12 : FVec F S32 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg8 : FVec F S64 .f32) (main_arg9 : FVec F S64x64 .f32) (main_arg10 : FVec F S64 .f32) (main_arg11 : FVec F S64x32 .f32) (main_arg12 : FVec F S32 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg11
  let main_cst_18 : FVec F S_ .f32 := constant S_ .f32 0x7F800000#32
  let main_v50 : FVec F S64x32 .f32 := broadcastInDim S64x32 ![] bcast_S_S64x32 main_cst_18
  fn_part3 (F := F) main_arg12 main_v48 main_v49 main_v50

def fn_part1 {F : FTy → Type} [FloatOps F] (main_arg5 : FVec F S64x64 .f32) (main_arg6 : FVec F S64 .f32) (main_arg7 : FVec F S128x64 .f32) (main_arg8 : FVec F S64 .f32) (main_arg9 : FVec F S64x64 .f32) (main_arg10 : FVec F S64 .f32) (main_arg11 : FVec F S64x32 .f32) (main_arg12 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x32 .f32) (main_arg1 : FVec F S100000x32 .f32) (main_arg2 : IVec S2x1600000 32) (main_arg3 : FVec F S128x64 .f32) (main_arg4 : FVec F S64 .f32) (main_arg5 : FVec F S64x64 .f32) (main_arg6 : FVec F S64 .f32) (main_arg7 : FVec F S128x64 .f32) (main_arg8 : FVec F S64 .f32) (main_arg9 : FVec F S64x64 .f32) (main_arg10 : FVec F S64 .f32) (main_arg11 : FVec F S64x32 .f32) (main_arg12 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S100000x32 : Shape := ⟨2, ![100000, 32]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S100000x64 : Shape := ⟨2, ![100000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S6400x64 : Shape := ⟨2, ![6400, 64]⟩
abbrev S1x64 : Shape := ⟨2, ![1, 64]⟩
abbrev S5000x64 : Shape := ⟨2, ![5000, 64]⟩
abbrev S5000x32 : Shape := ⟨2, ![5000, 32]⟩
abbrev S1x32 : Shape := ⟨2, ![1, 32]⟩

abbrev nBuf : Space → Nat
  | .hbm => 46
  | .vmem => 24
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S2x1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S100000x64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S64x64, .f32⟩
  | .hbm, ⟨37, _⟩ => ⟨S64x64, .f32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S64x64, .f32⟩
  | .hbm, ⟨44, _⟩ => ⟨S64x64, .f32⟩
  | .hbm, ⟨45, _⟩ => ⟨S100000x32, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S64x64, .f32⟩
  | .local _ .vmem, ⟨8, _⟩ => ⟨S64, .f32⟩
  | .local _ .vmem, ⟨9, _⟩ => ⟨S6400x64, .f32⟩
  | .local _ .vmem, ⟨10, _⟩ => ⟨S6400x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x64, .f32⟩
  | .local _ .vmem, ⟨16, _⟩ => ⟨S64x64, .f32⟩
  | .local _ .vmem, ⟨17, _⟩ => ⟨S64, .f32⟩
  | .local _ .vmem, ⟨18, _⟩ => ⟨S64x64, .f32⟩
  | .local _ .vmem, ⟨19, _⟩ => ⟨S64, .f32⟩
  | .local _ .vmem, ⟨20, _⟩ => ⟨S64x32, .f32⟩
  | .local _ .vmem, ⟨21, _⟩ => ⟨S32, .f32⟩
  | .local _ .vmem, ⟨22, _⟩ => ⟨S5000x32, .f32⟩
  | .local _ .vmem, ⟨23, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  concatenates_S100000x32_S100000x32_S100000x64_d1 : Shape.Concatenates [S100000x32, S100000x32] S100000x64 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S128x64_S64x64_0_0 : S128x64.Slices ![0, 0] S64x64
  slices_S128x64_S64x64_64_0 : S128x64.Slices ![64, 0] S64x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S6400x64 : S1x64.Broadcasts S6400x64
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  gather_S100000x64_S1600000x1_S1600000x64_1_0_n_n_0_1_164_wf : GatherDims.WF S100000x64 S1600000x1 S1600000x64 [1] [0] [] [0] [] 1 ![1, 64]
  dot_S6400x64_S64x64_S6400x64_1_0_0_1_n_n_wf : DotDims.WF S6400x64 S64x64 S6400x64 [1] [0] [0] [1] [] []
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x64.size a ≤ S1600000x64.size a
  hwx0_7 : ∀ i : grid0.Coords, EltTy.bits .f32 = 32 ∨ (Rect.block (s := S1600000x64) S6400x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x32.size a ≤ S64x32.size a
  hwx1_7 : ∀ i : grid1.Coords, EltTy.bits .f32 = 32 ∨ (Rect.block (s := S64x32) S64x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32.size a ≤ S32.size a
  hwx1_8 : ∀ i : grid1.Coords, EltTy.bits .f32 = 32 ∨ (Rect.block (s := S32) S32.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x32.size a ≤ S100000x32.size a
  hwx1_9 : ∀ i : grid1.Coords, EltTy.bits .f32 = 32 ∨ (Rect.block (s := S100000x32) S5000x32.size (cc1_transform_9 i) (hinb1_9 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v11) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S6400x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S64x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27) S5000x32.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S100000x64 : Shape := ⟨2, ![100000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S1x64 : Shape := ⟨2, ![1, 64]⟩
abbrev S100000x128 : Shape := ⟨2, ![100000, 128]⟩
abbrev S1x32 : Shape := ⟨2, ![1, 32]⟩

abbrev nBuf : Space → Nat
  | .hbm => 68
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S2x1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S100000x64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S1600000x128, .f32⟩
  | .hbm, ⟨37, _⟩ => ⟨S1600000x64, .f32⟩
  | .hbm, ⟨38, _⟩ => ⟨S1x64, .f32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S1600000x64, .f32⟩
  | .hbm, ⟨43, _⟩ => ⟨S1600000x64, .f32⟩
  | .hbm, ⟨44, _⟩ => ⟨S1600000x64, .f32⟩
  | .hbm, ⟨45, _⟩ => ⟨S1x64, .f32⟩
  | .hbm, ⟨46, _⟩ => ⟨S1600000x64, .f32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S100000x128, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call0_cst : Ref sig .tc := ⟨.hbm, 41, rfl⟩
abbrev main_call0_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_cst : Ref sig .tc := ⟨.hbm, 57, rfl⟩
abbrev main_call1_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]

class Facts₀ : Prop where
  concatenates_S100000x32_S100000x32_S100000x64_d1 : Shape.Concatenates [S100000x32, S100000x32] S100000x64 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  dot_S1600000x128_S128x64_S1600000x64_1_0_0_1_n_n_wf : DotDims.WF S1600000x128 S128x64 S1600000x64 [1] [0] [0] [1] [] []
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.Spec.lean ====
/-
  The mathematics both programs compute, stated once over plain index types, with no program in sight.

  A two-input perceptron layer: for row `p` and hidden unit `k`,
    hidden x y wa wb b p k = max (∑ a, x[p,a]·wa[a,k] + ∑ a, y[p,a]·wb[a,k] + b[k]) 0,
  then a linear layer on top of it,
    mlp … [p,q] = ∑ k, hidden … p k · w2[k,q] + b2[q],
  and (for the node update) one more linear layer, the prediction head,
    head … [p,q] = ∑ k, mlp … [p,k] · pw[k,q] + pb[q].
  Every entry of `mlp` and `head` depends on row `p` of `x` and `y` only, so a block of rows of the result is the
  same function of the same block of rows of the inputs (`mlp_rows`, `head_rows`).
  A weight matrix of 128 rows applied to the concatenation of `x` and `y` along the feature axis is its upper
  half applied to `x` plus its lower half applied to `y` (`sum_split`): a sum over `Fin 128` split at 64, which
  is valid in any commutative additive monoid, so also on the extended reals, infinities included.
-/
import Idealize.ShloMosaic.PureOps.Ideal
import Idealize.ShloMosaic.Lib.ValueIdx

noncomputable section

open scoped BigOperators
open Idealize.ShloMosaic Idealize.ShloMosaic.ValueIdx

namespace Cert.Spec

/-- A matrix of extended reals, by rank-2 index. -/
abbrev Mat (r c : Nat) : Type := (⟨2, ![r, c]⟩ : Shape).Idx → EReal
/-- A vector of extended reals, by rank-1 index. -/
abbrev Row (c : Nat) : Type := (⟨1, ![c]⟩ : Shape).Idx → EReal

/-- Rows 0 … 63 of a 128-row weight matrix. -/
def top {c : Nat} (w : Mat 128 c) : Mat 64 c := fun i => w (ix2 (Fin.castAdd 64 (i 0)) (i 1))
/-- Rows 64 … 127 of a 128-row weight matrix. -/
def bot {c : Nat} (w : Mat 128 c) : Mat 64 c := fun i => w (ix2 (Fin.natAdd 64 (i 0)) (i 1))

/-- The hidden layer at row `p`, unit `k`: the rectified sum of the two products and the bias. -/
def hidden {n : Nat} (x y : Mat n 64) (wa wb : Mat 64 64) (b : Row 64) (p : Fin n) (k : Fin 64) : EReal :=
  max ((∑ a : Fin 64, x (ix2 p a) * wa (ix2 a k)) + (∑ a : Fin 64, y (ix2 p a) * wb (ix2 a k)) + b (ix1 k)) 0

/-- The two-layer perceptron on the pair `(x, y)`. -/
def mlp {n : Nat} (x y : Mat n 64) (wa wb : Mat 64 64) (b : Row 64) (w2 : Mat 64 64) (b2 : Row 64) : Mat n 64 :=
  fun i => (∑ k : Fin 64, hidden x y wa wb b (i 0) k * w2 (ix2 k (i 1))) + b2 (ix1 (i 1))

/-- The perceptron followed by the linear prediction head. -/
def head {n : Nat} (x y : Mat n 64) (wa wb : Mat 64 64) (b : Row 64) (w2 : Mat 64 64) (b2 : Row 64)
    (pw : Mat 64 32) (pb : Row 32) : Mat n 32 :=
  fun i => (∑ k : Fin 64, mlp x y wa wb b w2 b2 (ix2 (i 0) k) * pw (ix2 k (i 1))) + pb (ix1 (i 1))

/-- `hidden` reads only row `p` of its two inputs. -/
theorem hidden_rows {n N : Nat} (x y : Mat n 64) (X Y : Mat N 64) (wa wb : Mat 64 64) (b : Row 64) (p : Fin n) (P : Fin N)
    (hx : ∀ a : Fin 64, x (ix2 p a) = X (ix2 P a)) (hy : ∀ a : Fin 64, y (ix2 p a) = Y (ix2 P a)) (k : Fin 64) :
    hidden x y wa wb b p k = hidden X Y wa wb b P k := by
  unfold hidden
  simp only [hx, hy]

/-- `mlp` at `(p, q)` reads only row `p` of its two inputs. -/
theorem mlp_rows {n N : Nat} (x y : Mat n 64) (X Y : Mat N 64) (wa wb : Mat 64 64) (b : Row 64) (w2 : Mat 64 64) (b2 : Row 64)
    (p : Fin n) (P : Fin N) (hx : ∀ a : Fin 64, x (ix2 p a) = X (ix2 P a)) (hy : ∀ a : Fin 64, y (ix2 p a) = Y (ix2 P a))
    (q : Fin 64) : mlp x y wa wb b w2 b2 (ix2 p q) = mlp X Y wa wb b w2 b2 (ix2 P q) := by
  unfold mlp
  show (∑ k : Fin 64, hidden x y wa wb b p k * w2 (ix2 k q)) + b2 (ix1 q) = (∑ k : Fin 64, hidden X Y wa wb b P k * w2 (ix2 k q)) + b2 (ix1 q)
  simp only [hidden_rows x y X Y wa wb b p P hx hy]

/-- `head` at `(p, q)` reads only row `p` of its two inputs. -/
theorem head_rows {n N : Nat} (x y : Mat n 64) (X Y : Mat N 64) (wa wb : Mat 64 64) (b : Row 64) (w2 : Mat 64 64) (b2 : Row 64)
    (pw : Mat 64 32) (pb : Row 32)
    (p : Fin n) (P : Fin N) (hx : ∀ a : Fin 64, x (ix2 p a) = X (ix2 P a)) (hy : ∀ a : Fin 64, y (ix2 p a) = Y (ix2 P a))
    (q : Fin 32) : head x y wa wb b w2 b2 pw pb (ix2 p q) = head X Y wa wb b w2 b2 pw pb (ix2 P q) := by
  unfold head
  show (∑ k : Fin 64, mlp x y wa wb b w2 b2 (ix2 p k) * pw (ix2 k q)) + pb (ix1 q) = (∑ k : Fin 64, mlp X Y wa wb b w2 b2 (ix2 P k) * pw (ix2 k q)) + pb (ix1 q)
  simp only [mlp_rows x y X Y wa wb b w2 b2 p P hx hy]

/-- A sum over `Fin 128` is the sum over its first 64 indices plus the sum over its last 64. -/
theorem sum_split {M : Type*} [AddCommMonoid M] (f : Fin 128 → M) :
    ∑ k : Fin 128, f k = (∑ a : Fin 64, f (Fin.castAdd 64 a)) + ∑ a : Fin 64, f (Fin.natAdd 64 a) :=
  Fin.sum_univ_add (a := 64) (b := 64) f

end Cert.Spec

end
-- ==== Proof.Payload.lean ====
import proofs.«152016_j53644141527375_1_alg».proof.Proof.Gen.KernelIdeal.Skeleton
import proofs.«152016_j53644141527375_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KernelIdeal.Payload

open Cert.KernelIdeal Cert.KernelIdeal.Gen

/-! ## A block of 6400 rows times a 64 × 64 matrix

At output entry `(p, q)` and contraction position `k` the left operand is read at `(p, k)` and the right one at
`(k, q)`: the four coordinate facts, then the product read at an entry as the sum over `k : Fin 64`. -/

/-- The left operand's row is the output's row. -/
theorem lhsA_0 (i : S6400x64.Idx) (q : dot_S6400x64_S64x64_S6400x64_1_0_0_1_n_n.contr.Idx) :
    (dot_S6400x64_S64x64_S6400x64_1_0_0_1_n_n.lhsIdx i q 0).val = (i 0).val := by
  unfold DotDims.lhsIdx
  rw [dif_neg (show ¬(0 : Fin S6400x64.rank) ∈ dot_S6400x64_S64x64_S6400x64_1_0_0_1_n_n.lhsBatch by decide),
    dif_pos (show (0 : Fin S6400x64.rank) ∈ dot_S6400x64_S64x64_S6400x64_1_0_0_1_n_n.lhsNonContracting by decide)]
  rfl
/-- The left operand's column is the contraction position. -/
theorem lhsA_1 (i : S6400x64.Idx) (q : dot_S6400x64_S64x64_S6400x64_1_0_0_1_n_n.contr.Idx) :
    (dot_S6400x64_S64x64_S6400x64_1_0_0_1_n_n.lhsIdx i q 1).val = (q ⟨0, by decide⟩).val :=
  dot_S6400x64_S64x64_S6400x64_1_0_0_1_n_n.lhsIdx_val_of_single rfl i q
/-- The right operand's row is the contraction position. -/
theorem rhsA_0 (i : S6400x64.Idx) (q : dot_S6400x64_S64x64_S6400x64_1_0_0_1_n_n.contr.Idx) :
    (dot_S6400x64_S64x64_S6400x64_1_0_0_1_n_n.rhsIdx i q 0).val = (q ⟨0, by decide⟩).val :=
  dot_S6400x64_S64x64_S6400x64_1_0_0_1_n_n.rhsIdx_val_of_single rfl i q
/-- The right operand's column is the output's column. -/
theorem rhsA_1 (i : S6400x64.Idx) (q : dot_S6400x64_S64x64_S6400x64_1_0_0_1_n_n.contr.Idx) :
    (dot_S6400x64_S64x64_S6400x64_1_0_0_1_n_n.rhsIdx i q 1).val = (i 1).val := by
  unfold DotDims.rhsIdx
  rw [dif_neg (show ¬(1 : Fin S64x64.rank) ∈ dot_S6400x64_S64x64_S6400x64_1_0_0_1_n_n.rhsBatch by decide),
    dif_pos (show (1 : Fin S64x64.rank) ∈ dot_S6400x64_S64x64_S6400x64_1_0_0_1_n_n.rhsNonContracting by decide)]
  rfl

/-- The product accumulated into the zero matrix, at entry `(p, q)`: `∑ k, l[p,k] · r[k,q]`. -/
theorem mmA {φ₁ φ₂ : FTy} (l : FVec Ideal S6400x64 φ₁) (r : FVec Ideal S64x64 φ₂) (p : Fin 6400) (q : Fin 64) :
    matmul dot_S6400x64_S64x64_S6400x64_1_0_0_1_n_n none l r (constant (F := Ideal) S6400x64 .f32 0x00000000#32) (ix2 p q)
      = ∑ k : Fin 64, l (ix2 p k) * r (ix2 k q) := by
  simp only [matmul]
  rw [Ideal.matmul_constant_zero_apply, ← Equiv.sum_comp (contrEquiv1 dot_S6400x64_S64x64_S6400x64_1_0_0_1_n_n 64 rfl rfl).symm]
  refine Finset.sum_congr rfl fun k _ => ?_
  have hk := contrEquiv1_symm_val dot_S6400x64_S64x64_S6400x64_1_0_0_1_n_n 64 rfl rfl k
  have el : dot_S6400x64_S64x64_S6400x64_1_0_0_1_n_n.lhsIdx (ix2 p q) ((contrEquiv1 dot_S6400x64_S64x64_S6400x64_1_0_0_1_n_n 64 rfl rfl).symm k) = ix2 p k :=
    funext fun a => Fin.ext (by
      match a with
      | ⟨0, _⟩ => exact lhsA_0 _ _
      | ⟨1, _⟩ => exact (lhsA_1 _ _).trans hk)
  have er : dot_S6400x64_S64x64_S6400x64_1_0_0_1_n_n.rhsIdx (ix2 p q) ((contrEquiv1 dot_S6400x64_S64x64_S6400x64_1_0_0_1_n_n 64 rfl rfl).symm k) = ix2 k q :=
    funext fun a => Fin.ext (by
      match a with
      | ⟨0, _⟩ => exact (rhsA_0 _ _).trans hk
      | ⟨1, _⟩ => exact rhsA_1 _ _)
  rw [el, er]

/-! ## A block of 5000 rows times a 64 × 64 matrix

At output entry `(p, q)` and contraction position `k` the left operand is read at `(p, k)` and the right one at
`(k, q)`: the four coordinate facts, then the product read at an entry as the sum over `k : Fin 64`. -/

/-- The left operand's row is the output's row. -/
theorem lhsB_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- The left operand's column is the contraction position. -/
theorem lhsB_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row is the contraction position. -/
theorem rhsB_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column is the output's column. -/
theorem rhsB_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The product accumulated into the zero matrix, at entry `(p, q)`: `∑ k, l[p,k] · r[k,q]`. -/
theorem mmB {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ => exact lhsB_0 _ _
      | ⟨1, _⟩ => exact (lhsB_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (rhsB_0 _ _).trans hk
      | ⟨1, _⟩ => exact rhsB_1 _ _)
  rw [el, er]

/-! ## A block of 5000 rows times a 64 × 32 matrix

At output entry `(p, q)` and contraction position `k` the left operand is read at `(p, k)` and the right one at
`(k, q)`: the four coordinate facts, then the product read at an entry as the sum over `k : Fin 64`. -/

/-- The left operand's row is the output's row. -/
theorem lhsC_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide),
    dif_pos (show (0 : Fin S5000x64.rank) ∈ dot_S5000x64_S64x32_S5000x32_1_0_0_1_n_n.lhsNonContracting by decide)]
  rfl
/-- The left operand's column is the contraction position. -/
theorem lhsC_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
/-- The right operand's row is the contraction position. -/
theorem rhsC_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
/-- The right operand's column is the output's column. -/
theorem rhsC_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide),
    dif_pos (show (1 : Fin S64x32.rank) ∈ dot_S5000x64_S64x32_S5000x32_1_0_0_1_n_n.rhsNonContracting by decide)]
  rfl

/-- The product accumulated into the zero matrix, at entry `(p, q)`: `∑ k, l[p,k] · r[k,q]`. -/
theorem mmC {φ₁ φ₂ : FTy} (l : FVec Ideal S5000x64 φ₁) (r : FVec Ideal S64x32 φ₂) (p : Fin 5000) (q : Fin 32) :
    matmul dot_S5000x64_S64x32_S5000x32_1_0_0_1_n_n none l r (constant (F := Ideal) S5000x32 .f32 0x00000000#32) (ix2 p q)
      = ∑ k : Fin 64, l (ix2 p k) * r (ix2 k q) := by
  simp only [matmul]
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k :=
    funext fun a => Fin.ext (by
      match a with
      | ⟨0, _⟩ => exact lhsC_0 _ _
      | ⟨1, _⟩ => exact (lhsC_1 _ _).trans hk)
  have er : dot_S5000x64_S64x32_S5000x32_1_0_0_1_n_n.rhsIdx (ix2 p q) ((contrEquiv1 dot_S5000x64_S64x32_S5000x32_1_0_0_1_n_n 64 rfl rfl).symm k) = ix2 k q :=
    funext fun a => Fin.ext (by
      match a with
      | ⟨0, _⟩ => exact (rhsC_0 _ _).trans hk
      | ⟨1, _⟩ => exact rhsC_1 _ _)
  rw [el, er]

/-! ## A bias row added to every row of a matrix -/

/-- A vector of `c` entries, read as one row and repeated over `n` rows, holds `b[q]` at `(p, q)`. -/
theorem bias_apply {α : Type} {n c : Nat} (b : (⟨1, ![c]⟩ : Shape).Idx → α)
    (h1 : (⟨1, ![c]⟩ : Shape).ShapeCasts ⟨2, ![1, c]⟩) (h2 : (⟨2, ![1, c]⟩ : Shape).Broadcasts ⟨2, ![n, c]⟩)
    (p : Fin n) (q : Fin c) :
    broadcastTo ⟨2, ![n, c]⟩ (shapeCast ⟨2, ![1, c]⟩ b h1) h2 (ix2 p q) = b (ix1 q) :=
  (broadcastTo_1b_ab_apply _ h2 p q).trans (shapeCast_a_1a_apply b h1 0 q)

/-- The bit pattern of `+0.0` denotes the extended real `0`. -/
theorem zero_word : (Scalar.ofBits .f32 0x00000000#32 : Ideal .f32) = 0 := Ideal.ofBits_zero_f32

/-! ## The two-layer perceptron, for any number of rows

The stored value of either kernel begins with the same term: two products summed, a bias row added, the maximum with
zero taken, one more product, one more bias row. Over any product operation `D` that reads at an entry as the sum
`∑ k, l[p,k] · r[k,q]`, that term is the specification's perceptron: the changes of format and the casts to the same
shape are the identity on extended reals, and what is left is the definition, entry by entry. -/

/-- The common term of the two kernels over `n` rows is the specification's perceptron. -/
theorem mlp_of {n : Nat} (D : DotDims ⟨2, ![n, 64]⟩ S64x64 ⟨2, ![n, 64]⟩)
    (hD : ∀ (l : FVec Ideal ⟨2, ![n, 64]⟩ .bf16) (r : FVec Ideal S64x64 .bf16) (p : Fin n) (q : Fin 64),
      matmul D none l r (constant (F := Ideal) ⟨2, ![n, 64]⟩ .f32 0x00000000#32) (ix2 p q)
        = ∑ k : Fin 64, l (ix2 p k) * r (ix2 k q))
    (hc : (⟨2, ![n, 64]⟩ : Shape).ShapeCasts ⟨2, ![n, 64]⟩) (hw : S64x64.ShapeCasts S64x64)
    (hb1 : S64.ShapeCasts S1x64) (hb2 : S1x64.Broadcasts ⟨2, ![n, 64]⟩) (ht : FTy.bits .bf16 < FTy.bits .f32)
    (x0 x1 : Vec Ideal ⟨2, ![n, 64]⟩ .f32) (x2 x3 : Vec Ideal S64x64 .f32) (x4 : Vec Ideal S64 .f32)
    (x5 : Vec Ideal S64x64 .f32) (x6 : Vec Ideal S64 .f32) :
    addf (matmul D none
        (truncf .bf16 (maximumf
          (addf (addf
              (matmul D none (truncf .bf16 (shapeCast ⟨2, ![n, 64]⟩ x0 hc) ht) (truncf .bf16 (shapeCast S64x64 x2 hw) ht)
                (constant (F := Ideal) ⟨2, ![n, 64]⟩ .f32 0x00000000#32))
              (matmul D none (truncf .bf16 (shapeCast ⟨2, ![n, 64]⟩ x1 hc) ht) (truncf .bf16 (shapeCast S64x64 x3 hw) ht)
                (constant (F := Ideal) ⟨2, ![n, 64]⟩ .f32 0x00000000#32)))
            (broadcastTo ⟨2, ![n, 64]⟩ (shapeCast S1x64 x4 hb1) hb2))
          (broadcast ⟨2, ![n, 64]⟩ (Scalar.ofBits .f32 0x00000000#32))) ht)
        (truncf .bf16 x5 ht) (constant (F := Ideal) ⟨2, ![n, 64]⟩ .f32 0x00000000#32))
      (broadcastTo ⟨2, ![n, 64]⟩ (shapeCast S1x64 x6 hb1) hb2)
      = Spec.mlp x0 x1 x2 x3 x4 x5 x6 := by
  funext j
  obtain ⟨p, q, rfl⟩ : ∃ (p : Fin n) (q : Fin 64), j = ix2 p q := ⟨j 0, j 1, eq_ix2 j⟩
  unfold Spec.mlp
  show _ = (∑ k : Fin 64, Spec.hidden x0 x1 x2 x3 x4 p k * x5 (ix2 k q)) + x6 (ix1 q)
  rw [addf_apply, hD, bias_apply]
  refine congrArg (· + x6 (ix1 q)) (Finset.sum_congr rfl fun k _ => ?_)
  rw [truncf_apply, truncf_apply, maximumf_apply, addf_apply, addf_apply, hD, hD, bias_apply, broadcast_apply, zero_word]
  unfold Spec.hidden
  simp only [truncf_apply, shapeCast_self]

/-- The message kernel's stored value, as a function of the seven blocks it loads, is the perceptron of the specification. -/
theorem pay0_eq (x0 x1 : Vec Ideal S6400x64 .f32) (x2 x3 : Vec Ideal S64x64 .f32) (x4 : Vec Ideal S64 .f32)
    (x5 : Vec Ideal S64x64 .f32) (x6 : Vec Ideal S64 .f32) :
    k0_pay1 x0 x1 x2 x3 x4 x5 x6 = Spec.mlp x0 x1 x2 x3 x4 x5 x6 :=
  mlp_of dot_S6400x64_S64x64_S6400x64_1_0_0_1_n_n (fun l r p q => mmA l r p q)
    shapeCasts_S6400x64_S6400x64 shapeCasts_S64x64_S64x64 shapeCasts_S64_S1x64 broadcasts_S1x64_S6400x64 bitsLt_bf16_f32
    x0 x1 x2 x3 x4 x5 x6

/-- The update kernel's stored value, as a function of the nine blocks it loads, is the perceptron with the prediction head of the specification. -/
theorem pay1_eq (x0 x1 : Vec Ideal S5000x64 .f32) (x2 x3 : Vec Ideal S64x64 .f32) (x4 : Vec Ideal S64 .f32)
    (x5 : Vec Ideal S64x64 .f32) (x6 : Vec Ideal S64 .f32) (x7 : Vec Ideal S64x32 .f32) (x8 : Vec Ideal S32 .f32) :
    k1_pay1 x0 x1 x2 x3 x4 x5 x6 x7 x8 = Spec.head x0 x1 x2 x3 x4 x5 x6 x7 x8 := by
  funext j
  obtain ⟨p, q, rfl⟩ : ∃ (p : Fin 5000) (q : Fin 32), j = ix2 p q := ⟨j 0, j 1, eq_ix2 j⟩
  unfold Spec.head
  show _ = (∑ k : Fin 64, Spec.mlp x0 x1 x2 x3 x4 x5 x6 (ix2 p k) * x7 (ix2 k q)) + x8 (ix1 q)
  unfold k1_pay1
  rw [addf_apply, mmC, bias_apply]
  refine congrArg (· + x8 (ix1 q)) (Finset.sum_congr rfl fun k _ => ?_)
  rw [truncf_apply, truncf_apply]
  exact congrArg (fun M : Spec.Mat 5000 64 => M (ix2 p k) * x7 (ix2 k q))
    (mlp_of dot_S5000x64_S64x64_S5000x64_1_0_0_1_n_n (fun l r p q => mmB l r p q)
      shapeCasts_S5000x64_S5000x64 shapeCasts_S64x64_S64x64 shapeCasts_S64_S1x64 broadcasts_S1x64_S5000x64 bitsLt_bf16_f32
      x0 x1 x2 x3 x4 x5 x6)

end Cert.KernelIdeal.Payload

end
-- ==== Proof.Region0.lean ====
import proofs.«152016_j53644141527375_1_alg».proof.Proof.Gen.KernelIdeal.Frame
import proofs.«152016_j53644141527375_1_alg».proof.Proof.Spec
import proofs.«152016_j53644141527375_1_alg».proof.Proof.Payload
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

/-- The offsets of an access to a whole rank-2 buffer are zero on both axes. -/
theorem hz : (![0, 0] : Fin 2 → Nat) = fun _ => 0 := funext fun a => by fin_cases a <;> rfl
/-- The offset of an access to a whole rank-1 buffer is zero. -/
theorem hz1 : (![0] : Fin 1 → Nat) = fun _ => 0 := funext fun a => by fin_cases a; rfl

/-- The block indices at grid point `t`: the two row-blocked inputs and the output are at row block `t`, column block 0;
    the weights and biases are at block 0 on every axis. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-! ## Each input block, read off its array

A block's coordinate in its array is the block index times the block size plus the coordinate inside the block. -/

/-- The first input's block at point `t`: its row `p` is row `6400·t + p` of the array. -/
theorem xblk_apply (c : Dev nD) (t : Fin cfg0.N) (p : Fin 6400) (a : Fin 64) (P : Fin 1600000)
    (hP : P.val = 6400 * t.val + p.val) :
    (iblk0 V c 0 t : Vec Ideal S6400x64 .f32) (ix2 p a) = (V c main_v11 : S1600000x64.Idx → EReal) (ix2 P a) := by
  obtain ⟨e0, e1, -⟩ := idx_facts t
  unfold iblk0
  rw [View.read_apply]
  show V c main_v11 _ = V c main_v11 _
  congr 1
  funext d
  apply Fin.ext
  match d with
  | ⟨0, _⟩ => show win0_0.index t 0 * 6400 + 1 * p.val = P.val; rw [e0, hP]; omega
  | ⟨1, _⟩ => show win0_0.index t 1 * 64 + 1 * a.val = a.val; rw [e1]; omega

/-- The second input's block at point `t`: its row `p` is row `6400·t + p` of the array. -/
theorem yblk_apply (c : Dev nD) (t : Fin cfg0.N) (p : Fin 6400) (a : Fin 64) (P : Fin 1600000)
    (hP : P.val = 6400 * t.val + p.val) :
    (iblk0 V c 1 t : Vec Ideal S6400x64 .f32) (ix2 p a) = (V c main_v18 : S1600000x64.Idx → EReal) (ix2 P a) := by
  obtain ⟨-, -, e0, e1, -⟩ := idx_facts t
  unfold iblk0
  rw [View.read_apply]
  show V c main_v18 _ = V c main_v18 _
  congr 1
  funext d
  apply Fin.ext
  match d with
  | ⟨0, _⟩ => show win0_1.index t 0 * 6400 + 1 * p.val = P.val; rw [e0, hP]; omega
  | ⟨1, _⟩ => show win0_1.index t 1 * 64 + 1 * a.val = a.val; rw [e1]; omega

/-- The upper weight half's block is the whole array, at every point. -/
theorem wablk_eq (c : Dev nD) (t : Fin cfg0.N) :
    (iblk0 V c 2 t : Vec Ideal S64x64 .f32) = (V c main_v19 : S64x64.Idx → EReal) := by
  obtain ⟨-, -, -, -, e0, e1, -⟩ := idx_facts t
  funext j
  unfold iblk0
  rw [View.read_apply]
  show V c main_v19 _ = V c main_v19 j
  congr 1
  funext d
  apply Fin.ext
  match d with
  | ⟨0, _⟩ => show win0_2.index t 0 * 64 + 1 * (j 0).val = (j 0).val; rw [e0]; omega
  | ⟨1, _⟩ => show win0_2.index t 1 * 64 + 1 * (j 1).val = (j 1).val; rw [e1]; omega

/-- The lower weight half's block is the whole array, at every point. -/
theorem wbblk_eq (c : Dev nD) (t : Fin cfg0.N) :
    (iblk0 V c 3 t : Vec Ideal S64x64 .f32) = (V c main_v20 : S64x64.Idx → EReal) := by
  obtain ⟨-, -, -, -, -, -, e0, e1, -⟩ := idx_facts t
  funext j
  unfold iblk0
  rw [View.read_apply]
  show V c main_v20 _ = V c main_v20 j
  congr 1
  funext d
  apply Fin.ext
  match d with
  | ⟨0, _⟩ => show win0_3.index t 0 * 64 + 1 * (j 0).val = (j 0).val; rw [e0]; omega
  | ⟨1, _⟩ => show win0_3.index t 1 * 64 + 1 * (j 1).val = (j 1).val; rw [e1]; omega

/-- The first bias's block is the whole vector, at every point. -/
theorem bblk_eq (c : Dev nD) (t : Fin cfg0.N) :
    (iblk0 V c 4 t : Vec Ideal S64 .f32) = (V c main_arg4 : S64.Idx → EReal) := by
  obtain ⟨-, -, -, -, -, -, -, -, e0, -⟩ := idx_facts t
  funext j
  unfold iblk0
  rw [View.read_apply]
  show V c main_arg4 _ = V c main_arg4 j
  congr 1
  funext d
  apply Fin.ext
  match d with
  | ⟨0, _⟩ => show win0_4.index t 0 * 64 + 1 * (j 0).val = (j 0).val; rw [e0]; omega

/-- The second layer's weight block is the whole array, at every point. -/
theorem w2blk_eq (c : Dev nD) (t : Fin cfg0.N) :
    (iblk0 V c 5 t : Vec Ideal S64x64 .f32) = (V c main_arg5 : S64x64.Idx → EReal) := by
  obtain ⟨-, -, -, -, -, -, -, -, -, e0, e1, -⟩ := idx_facts t
  funext j
  unfold iblk0
  rw [View.read_apply]
  show V c main_arg5 _ = V c main_arg5 j
  congr 1
  funext d
  apply Fin.ext
  match d with
  | ⟨0, _⟩ => show win0_5.index t 0 * 64 + 1 * (j 0).val = (j 0).val; rw [e0]; omega
  | ⟨1, _⟩ => show win0_5.index t 1 * 64 + 1 * (j 1).val = (j 1).val; rw [e1]; omega

/-- The second bias's block is the whole vector, at every point. -/
theorem b2blk_eq (c : Dev nD) (t : Fin cfg0.N) :
    (iblk0 V c 6 t : Vec Ideal S64 .f32) = (V c main_arg6 : S64.Idx → EReal) := by
  obtain ⟨-, -, -, -, -, -, -, -, -, -, -, e0, -⟩ := idx_facts t
  funext j
  unfold iblk0
  rw [View.read_apply]
  show V c main_arg6 _ = V c main_arg6 j
  congr 1
  funext d
  apply Fin.ext
  match d with
  | ⟨0, _⟩ => show win0_6.index t 0 * 64 + 1 * (j 0).val = (j 0).val; rw [e0]; omega

/-! ## One block of the perceptron

The perceptron of a block of rows, with the weights it was given, is the same block of rows of the perceptron of the whole
arrays: an entry at row `p` reads row `p` of the two inputs only. -/

/-- `Spec.mlp_rows` with the weights and biases given up to equality. -/
theorem mlp_block {n N : Nat} (x y : Spec.Mat n 64) (X Y : Spec.Mat N 64) (wa wb WA WB : Spec.Mat 64 64) (b B : Spec.Row 64)
    (w2 W2 : Spec.Mat 64 64) (b2 B2 : Spec.Row 64) (p : Fin n) (P : Fin N)
    (hx : ∀ a : Fin 64, x (ix2 p a) = X (ix2 P a)) (hy : ∀ a : Fin 64, y (ix2 p a) = Y (ix2 P a))
    (hwa : wa = WA) (hwb : wb = WB) (hb : b = B) (hw2 : w2 = W2) (hb2 : b2 = B2) (q : Fin 64) :
    Spec.mlp x y wa wb b w2 b2 (ix2 p q) = Spec.mlp X Y WA WB B W2 B2 (ix2 P q) := by
  subst hwa hwb hb hw2 hb2
  exact Spec.mlp_rows x y X Y wa wb b w2 b2 p P hx hy q

/-- WHAT POINT `t` WRITES BACK is block `t` of the perceptron of the arrays as the call finds them. -/
theorem flushed_eq (c : Dev nD) (t : Fin cfg0.N) :
    (dat0 V c).flushed 7 t = ((cfg0.win 7).blk t).view.read (Elt Ideal)
      (Spec.mlp (V c main_v11) (V c main_v18) (V c main_v19) (V c main_v20) (V c main_arg4) (V c main_arg5) (V c main_arg6)) := by
  show (cfg0.win 7).cut (grid0.coords t) ((dat0 V c).after 7 t) = _
  rw [after0_7]
  unfold out0_7
  rw [View.canon_unit_zero hz]
  simp only [View.ld_unit_zero (S := S6400x64) hz, View.ld_unit_zero (S := S64x64) hz, View.ld_unit_zero (S := S64) hz1]
  rw [Payload.pay0_eq]
  obtain ⟨-, -, -, -, -, -, -, -, -, -, -, -, e0, e1⟩ := idx_facts t
  have ht : t.val < 250 := by have h := t.isLt; have hN : cfg0.N = 250 := N_0; omega
  refine funext fun (j : S6400x64.Idx) => ?_
  obtain ⟨p, q, rfl⟩ : ∃ (p : Fin 6400) (q : Fin 64), j = ix2 p q := ⟨j 0, j 1, eq_ix2 j⟩
  have hp : p.val < 6400 := p.isLt
  have hP : 6400 * t.val + p.val < 1600000 := by omega
  have hemb : ((cfg0.win 7).blk t).view.emb (ix2 p q) = (ix2 (⟨6400 * t.val + p.val, hP⟩ : Fin 1600000) q : S1600000x64.Idx) := by
    funext d
    apply Fin.ext
    match d with
    | ⟨0, _⟩ => show win0_7.index t 0 * 6400 + 1 * p.val = 6400 * t.val + p.val; rw [e0]; omega
    | ⟨1, _⟩ => show win0_7.index t 1 * 64 + 1 * q.val = q.val; rw [e1]; omega
  rw [View.read_apply, hemb]
  exact mlp_block (iblk0 V c 0 t) (iblk0 V c 1 t) (V c main_v11) (V c main_v18)
    (iblk0 V c 2 t) (iblk0 V c 3 t) (V c main_v19) (V c main_v20) (iblk0 V c 4 t) (V c main_arg4)
    (iblk0 V c 5 t) (V c main_arg5) (iblk0 V c 6 t) (V c main_arg6) p ⟨6400 * t.val + p.val, hP⟩
    (fun a => xblk_apply V c t p a ⟨6400 * t.val + p.val, hP⟩ rfl)
    (fun a => yblk_apply V c t p a ⟨6400 * t.val + p.val, hP⟩ rfl)
    (wablk_eq V c t) (wbblk_eq V c t) (bblk_eq V c t) (w2blk_eq V c t) (b2blk_eq V c t) q

/-! ## The blocks cover the array -/

/-- An index of the result array is in point `t`'s block iff each coordinate is in the block's range on its axis. -/
theorem mem_blk (t : Fin cfg0.N) (i : S1600000x64.Idx) :
    i ∈ ((cfg0.win 7).blk t).view.set ↔ ∀ a : Fin 2, win0_7.index t a * S6400x64.size a ≤ (i a).val
      ∧ (i a).val < win0_7.index t a * S6400x64.size a + S6400x64.size a := by
  show i ∈ ((View.whole main_v21).slice (win0_7.rect t)).set ↔ _
  rw [View.set_slice_whole, Rect.mem_set_unit]
  exact Iff.rfl

/-- Row `r` of the result array is in the block of point `r / 6400`. -/
theorem cover (i : S1600000x64.Idx) :
    ∃ t : Fin cfg0.N, (cfg0.win 7).flush t = true ∧ i ∈ ((cfg0.win 7).blk t).view.set := by
  have hi0 : (i 0).val < 1600000 := (i 0).isLt
  have hi1 : (i 1).val < 64 := (i 1).isLt
  have hN : cfg0.N = 250 := N_0
  have hlt : (i 0).val / 6400 < cfg0.N := by rw [hN]; omega
  obtain ⟨-, -, -, -, -, -, -, -, -, -, -, -, e0, e1⟩ := idx_facts ⟨(i 0).val / 6400, hlt⟩
  refine ⟨⟨(i 0).val / 6400, hlt⟩, flush0_7 _, ?_⟩
  rw [mem_blk]
  intro a
  match a with
  | ⟨0, _⟩ =>
    show win0_7.index ⟨(i 0).val / 6400, hlt⟩ 0 * 6400 ≤ (i 0).val
      ∧ (i 0).val < win0_7.index ⟨(i 0).val / 6400, hlt⟩ 0 * 6400 + 6400
    rw [e0]
    show (i 0).val / 6400 * 6400 ≤ (i 0).val ∧ (i 0).val < (i 0).val / 6400 * 6400 + 6400
    omega
  | ⟨1, _⟩ =>
    show win0_7.index ⟨(i 0).val / 6400, hlt⟩ 1 * 64 ≤ (i 1).val
      ∧ (i 1).val < win0_7.index ⟨(i 0).val / 6400, hlt⟩ 1 * 64 + 64
    rw [e1]
    omega

/-- After the first kernel call its result array holds the perceptron of the arrays the call was entered with. -/
theorem value (c : Dev nD) :
    (dat0 (F := Ideal) V c).arrAt 7 cfg0.N
      = Spec.mlp (V c main_v11) (V c main_v18) (V c main_v19) (V c main_v20) (V c main_arg4) (V c main_arg5) (V c main_arg6) :=
  (dat0 V c).arrAt_eq_of_cover 7 _ (fun t _ => flushed_eq V c t) cover

end Cert.KernelIdeal.Region0

end
-- ==== Proof.Region1.lean ====
import proofs.«152016_j53644141527375_1_alg».proof.Proof.Gen.KernelIdeal.Frame
import proofs.«152016_j53644141527375_1_alg».proof.Proof.Spec
import proofs.«152016_j53644141527375_1_alg».proof.Proof.Payload
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

/-- The offsets of an access to a whole rank-2 buffer are zero on both axes. -/
theorem hz : (![0, 0] : Fin 2 → Nat) = fun _ => 0 := funext fun a => by fin_cases a <;> rfl
/-- The offset of an access to a whole rank-1 buffer is zero. -/
theorem hz1 : (![0] : Fin 1 → Nat) = fun _ => 0 := funext fun a => by fin_cases a; rfl

/-- The block indices at grid point `t`: the two row-blocked inputs and the output are at row block `t`, column block 0;
    the weights and biases of the three layers are at block 0 on every axis. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0 :=
  (by decide +kernel : ∀ t : Fin grid1.N, _)

/-! ## Each input block, read off its array

A block's coordinate in its array is the block index times the block size plus the coordinate inside the block. -/

/-- The first input's block at point `t`: its row `p` is row `5000·t + p` of the array. -/
theorem xblk_apply (c : Dev nD) (t : Fin cfg1.N) (p : Fin 5000) (a : Fin 64) (P : Fin 100000)
    (hP : P.val = 5000 * t.val + p.val) :
    (iblk1 V c 0 t : Vec Ideal S5000x64 .f32) (ix2 p a) = (V c main_v0 : S100000x64.Idx → EReal) (ix2 P a) := by
  obtain ⟨e0, e1, -⟩ := idx_facts t
  unfold iblk1
  rw [View.read_apply]
  show V c main_v0 _ = V c main_v0 _
  congr 1
  funext d
  apply Fin.ext
  match d with
  | ⟨0, _⟩ => show win1_0.index t 0 * 5000 + 1 * p.val = P.val; rw [e0, hP]; omega
  | ⟨1, _⟩ => show win1_0.index t 1 * 64 + 1 * a.val = a.val; rw [e1]; omega

/-- The second input's block at point `t`: its row `p` is row `5000·t + p` of the array. -/
theorem yblk_apply (c : Dev nD) (t : Fin cfg1.N) (p : Fin 5000) (a : Fin 64) (P : Fin 100000)
    (hP : P.val = 5000 * t.val + p.val) :
    (iblk1 V c 1 t : Vec Ideal S5000x64 .f32) (ix2 p a) = (V c main_v24 : S100000x64.Idx → EReal) (ix2 P a) := by
  obtain ⟨-, -, e0, e1, -⟩ := idx_facts t
  unfold iblk1
  rw [View.read_apply]
  show V c main_v24 _ = V c main_v24 _
  congr 1
  funext d
  apply Fin.ext
  match d with
  | ⟨0, _⟩ => show win1_1.index t 0 * 5000 + 1 * p.val = P.val; rw [e0, hP]; omega
  | ⟨1, _⟩ => show win1_1.index t 1 * 64 + 1 * a.val = a.val; rw [e1]; omega

/-- The upper weight half's block is the whole array, at every point. -/
theorem wablk_eq (c : Dev nD) (t : Fin cfg1.N) :
    (iblk1 V c 2 t : Vec Ideal S64x64 .f32) = (V c main_v25 : S64x64.Idx → EReal) := by
  obtain ⟨-, -, -, -, e0, e1, -⟩ := idx_facts t
  funext j
  unfold iblk1
  rw [View.read_apply]
  show V c main_v25 _ = V c main_v25 j
  congr 1
  funext d
  apply Fin.ext
  match d with
  | ⟨0, _⟩ => show win1_2.index t 0 * 64 + 1 * (j 0).val = (j 0).val; rw [e0]; omega
  | ⟨1, _⟩ => show win1_2.index t 1 * 64 + 1 * (j 1).val = (j 1).val; rw [e1]; omega

/-- The lower weight half's block is the whole array, at every point. -/
theorem wbblk_eq (c : Dev nD) (t : Fin cfg1.N) :
    (iblk1 V c 3 t : Vec Ideal S64x64 .f32) = (V c main_v26 : S64x64.Idx → EReal) := by
  obtain ⟨-, -, -, -, -, -, e0, e1, -⟩ := idx_facts t
  funext j
  unfold iblk1
  rw [View.read_apply]
  show V c main_v26 _ = V c main_v26 j
  congr 1
  funext d
  apply Fin.ext
  match d with
  | ⟨0, _⟩ => show win1_3.index t 0 * 64 + 1 * (j 0).val = (j 0).val; rw [e0]; omega
  | ⟨1, _⟩ => show win1_3.index t 1 * 64 + 1 * (j 1).val = (j 1).val; rw [e1]; omega

/-- The first bias's block is the whole vector, at every point. -/
theorem bblk_eq (c : Dev nD) (t : Fin cfg1.N) :
    (iblk1 V c 4 t : Vec Ideal S64 .f32) = (V c main_arg8 : S64.Idx → EReal) := by
  obtain ⟨-, -, -, -, -, -, -, -, e0, -⟩ := idx_facts t
  funext j
  unfold iblk1
  rw [View.read_apply]
  show V c main_arg8 _ = V c main_arg8 j
  congr 1
  funext d
  apply Fin.ext
  match d with
  | ⟨0, _⟩ => show win1_4.index t 0 * 64 + 1 * (j 0).val = (j 0).val; rw [e0]; omega

/-- The second layer's weight block is the whole array, at every point. -/
theorem w2blk_eq (c : Dev nD) (t : Fin cfg1.N) :
    (iblk1 V c 5 t : Vec Ideal S64x64 .f32) = (V c main_arg9 : S64x64.Idx → EReal) := by
  obtain ⟨-, -, -, -, -, -, -, -, -, e0, e1, -⟩ := idx_facts t
  funext j
  unfold iblk1
  rw [View.read_apply]
  show V c main_arg9 _ = V c main_arg9 j
  congr 1
  funext d
  apply Fin.ext
  match d with
  | ⟨0, _⟩ => show win1_5.index t 0 * 64 + 1 * (j 0).val = (j 0).val; rw [e0]; omega
  | ⟨1, _⟩ => show win1_5.index t 1 * 64 + 1 * (j 1).val = (j 1).val; rw [e1]; omega

/-- The second bias's block is the whole vector, at every point. -/
theorem b2blk_eq (c : Dev nD) (t : Fin cfg1.N) :
    (iblk1 V c 6 t : Vec Ideal S64 .f32) = (V c main_arg10 : S64.Idx → EReal) := by
  obtain ⟨-, -, -, -, -, -, -, -, -, -, -, e0, -⟩ := idx_facts t
  funext j
  unfold iblk1
  rw [View.read_apply]
  show V c main_arg10 _ = V c main_arg10 j
  congr 1
  funext d
  apply Fin.ext
  match d with
  | ⟨0, _⟩ => show win1_6.index t 0 * 64 + 1 * (j 0).val = (j 0).val; rw [e0]; omega

/-- The prediction head's weight block is the whole array, at every point. -/
theorem pwblk_eq (c : Dev nD) (t : Fin cfg1.N) :
    (iblk1 V c 7 t : Vec Ideal S64x32 .f32) = (V c main_arg11 : S64x32.Idx → EReal) := by
  obtain ⟨-, -, -, -, -, -, -, -, -, -, -, -, e0, e1, -⟩ := idx_facts t
  funext j
  unfold iblk1
  rw [View.read_apply]
  show V c main_arg11 _ = V c main_arg11 j
  congr 1
  funext d
  apply Fin.ext
  match d with
  | ⟨0, _⟩ => show win1_7.index t 0 * 64 + 1 * (j 0).val = (j 0).val; rw [e0]; omega
  | ⟨1, _⟩ => show win1_7.index t 1 * 32 + 1 * (j 1).val = (j 1).val; rw [e1]; omega

/-- The prediction head's bias block is the whole vector, at every point. -/
theorem pbblk_eq (c : Dev nD) (t : Fin cfg1.N) :
    (iblk1 V c 8 t : Vec Ideal S32 .f32) = (V c main_arg12 : S32.Idx → EReal) := by
  obtain ⟨-, -, -, -, -, -, -, -, -, -, -, -, -, -, e0, -⟩ := idx_facts t
  funext j
  unfold iblk1
  rw [View.read_apply]
  show V c main_arg12 _ = V c main_arg12 j
  congr 1
  funext d
  apply Fin.ext
  match d with
  | ⟨0, _⟩ => show win1_8.index t 0 * 32 + 1 * (j 0).val = (j 0).val; rw [e0]; omega

/-! ## One block of the perceptron with its head

The perceptron with its head of a block of rows, with the weights it was given, is the same block of rows of that function
of the whole arrays: an entry at row `p` reads row `p` of the two inputs only. -/

/-- `Spec.head_rows` with the weights and biases given up to equality. -/
theorem head_block {n N : Nat} (x y : Spec.Mat n 64) (X Y : Spec.Mat N 64) (wa wb WA WB : Spec.Mat 64 64) (b B : Spec.Row 64)
    (w2 W2 : Spec.Mat 64 64) (b2 B2 : Spec.Row 64) (pw PW : Spec.Mat 64 32) (pb PB : Spec.Row 32) (p : Fin n) (P : Fin N)
    (hx : ∀ a : Fin 64, x (ix2 p a) = X (ix2 P a)) (hy : ∀ a : Fin 64, y (ix2 p a) = Y (ix2 P a))
    (hwa : wa = WA) (hwb : wb = WB) (hb : b = B) (hw2 : w2 = W2) (hb2 : b2 = B2) (hpw : pw = PW) (hpb : pb = PB)
    (q : Fin 32) :
    Spec.head x y wa wb b w2 b2 pw pb (ix2 p q) = Spec.head X Y WA WB B W2 B2 PW PB (ix2 P q) := by
  subst hwa hwb hb hw2 hb2 hpw hpb
  exact Spec.head_rows x y X Y wa wb b w2 b2 pw pb p P hx hy q

/-- WHAT POINT `t` WRITES BACK is block `t` of the perceptron with its head of the arrays as the call finds them. -/
theorem flushed_eq (c : Dev nD) (t : Fin cfg1.N) :
    (dat1 V c).flushed 9 t = ((cfg1.win 9).blk t).view.read (Elt Ideal)
      (Spec.head (V c main_v0) (V c main_v24) (V c main_v25) (V c main_v26) (V c main_arg8) (V c main_arg9) (V c main_arg10)
        (V c main_arg11) (V c main_arg12)) := by
  show (cfg1.win 9).cut (grid1.coords t) ((dat1 V c).after 9 t) = _
  rw [after1_9]
  unfold out1_9
  rw [View.canon_unit_zero hz]
  simp only [View.ld_unit_zero (S := S5000x64) hz, View.ld_unit_zero (S := S64x64) hz, View.ld_unit_zero (S := S64) hz1,
    View.ld_unit_zero (S := S64x32) hz, View.ld_unit_zero (S := S32) hz1]
  rw [Payload.pay1_eq]
  obtain ⟨-, -, -, -, -, -, -, -, -, -, -, -, -, -, -, e0, e1⟩ := idx_facts t
  have ht : t.val < 20 := by have h := t.isLt; have hN : cfg1.N = 20 := N_1; omega
  refine funext fun (j : S5000x32.Idx) => ?_
  obtain ⟨p, q, rfl⟩ : ∃ (p : Fin 5000) (q : Fin 32), j = ix2 p q := ⟨j 0, j 1, eq_ix2 j⟩
  have hp : p.val < 5000 := p.isLt
  have hP : 5000 * t.val + p.val < 100000 := by omega
  have hemb : ((cfg1.win 9).blk t).view.emb (ix2 p q) = (ix2 (⟨5000 * t.val + p.val, hP⟩ : Fin 100000) q : S100000x32.Idx) := by
    funext d
    apply Fin.ext
    match d with
    | ⟨0, _⟩ => show win1_9.index t 0 * 5000 + 1 * p.val = 5000 * t.val + p.val; rw [e0]; omega
    | ⟨1, _⟩ => show win1_9.index t 1 * 32 + 1 * q.val = q.val; rw [e1]; omega
  rw [View.read_apply, hemb]
  exact head_block (iblk1 V c 0 t) (iblk1 V c 1 t) (V c main_v0) (V c main_v24)
    (iblk1 V c 2 t) (iblk1 V c 3 t) (V c main_v25) (V c main_v26) (iblk1 V c 4 t) (V c main_arg8)
    (iblk1 V c 5 t) (V c main_arg9) (iblk1 V c 6 t) (V c main_arg10) (iblk1 V c 7 t) (V c main_arg11)
    (iblk1 V c 8 t) (V c main_arg12) p ⟨5000 * t.val + p.val, hP⟩
    (fun a => xblk_apply V c t p a ⟨5000 * t.val + p.val, hP⟩ rfl)
    (fun a => yblk_apply V c t p a ⟨5000 * t.val + p.val, hP⟩ rfl)
    (wablk_eq V c t) (wbblk_eq V c t) (bblk_eq V c t) (w2blk_eq V c t) (b2blk_eq V c t) (pwblk_eq V c t) (pbblk_eq V c t) q

/-! ## The blocks cover the array -/

/-- An index of the result array is in point `t`'s block iff each coordinate is in the block's range on its axis. -/
theorem mem_blk (t : Fin cfg1.N) (i : S100000x32.Idx) :
    i ∈ ((cfg1.win 9).blk t).view.set ↔ ∀ a : Fin 2, win1_9.index t a * S5000x32.size a ≤ (i a).val
      ∧ (i a).val < win1_9.index t a * S5000x32.size a + S5000x32.size a := by
  show i ∈ ((View.whole main_v27).slice (win1_9.rect t)).set ↔ _
  rw [View.set_slice_whole, Rect.mem_set_unit]
  exact Iff.rfl

/-- Row `r` of the result array is in the block of point `r / 5000`. -/
theorem cover (i : S100000x32.Idx) :
    ∃ t : Fin cfg1.N, (cfg1.win 9).flush t = true ∧ i ∈ ((cfg1.win 9).blk t).view.set := by
  have hi0 : (i 0).val < 100000 := (i 0).isLt
  have hi1 : (i 1).val < 32 := (i 1).isLt
  have hN : cfg1.N = 20 := N_1
  have hlt : (i 0).val / 5000 < cfg1.N := by rw [hN]; omega
  obtain ⟨-, -, -, -, -, -, -, -, -, -, -, -, -, -, -, e0, e1⟩ := idx_facts ⟨(i 0).val / 5000, hlt⟩
  refine ⟨⟨(i 0).val / 5000, hlt⟩, flush1_9 _, ?_⟩
  rw [mem_blk]
  intro a
  match a with
  | ⟨0, _⟩ =>
    show win1_9.index ⟨(i 0).val / 5000, hlt⟩ 0 * 5000 ≤ (i 0).val
      ∧ (i 0).val < win1_9.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win1_9.index ⟨(i 0).val / 5000, hlt⟩ 1 * 32 ≤ (i 1).val
      ∧ (i 1).val < win1_9.index ⟨(i 0).val / 5000, hlt⟩ 1 * 32 + 32
    rw [e1]
    omega

/-- After the second kernel call its result array holds the perceptron with the prediction head of the arrays the call was entered with. -/
theorem value (c : Dev nD) :
    (dat1 (F := Ideal) V c).arrAt 9 cfg1.N
      = Spec.head (V c main_v0) (V c main_v24) (V c main_v25) (V c main_v26) (V c main_arg8) (V c main_arg9) (V c main_arg10)
          (V c main_arg11) (V c main_arg12) :=
  (dat1 V c).arrAt_eq_of_cover 9 _ (fun t _ => flushed_eq V c t) cover

end Cert.KernelIdeal.Region1

end
-- ==== Proof.KernelValue.lean ====
/-
  What the kernel program's result array holds at the end, as one function of the arguments.

  Node features: `feat c` is positions and velocities joined along the feature axis, [100000, 64]. For every edge the
  program gathers the features of its target node (`featTgt`, through the second row of the edge list) and of its
  source node (`featSrc`, through the first row), a negative index first wrapped by adding the node count. The first
  pallas_call leaves the specification's perceptron of these two arrays, with the upper and lower halves of the
  message weights (`messages`); the scatter-add over the target indices sums the messages per node (`aggregated`);
  the second pallas_call leaves the perceptron with the prediction head of the node features and the aggregate, with
  the halves of the update weights (`result`). Each array a pallas_call finds on entry is read back, through the
  host operations before it, to the launch memory.
-/
import proofs.«152016_j53644141527375_1_alg».proof.Proof.Gen.KernelIdeal.Frame
import proofs.«152016_j53644141527375_1_alg».proof.Proof.KernelRun
import proofs.«152016_j53644141527375_1_alg».proof.Proof.Spec
import proofs.«152016_j53644141527375_1_alg».proof.Proof.Region0
import proofs.«152016_j53644141527375_1_alg».proof.Proof.Region1
import Idealize.ShloMosaic.Lib.StableHlo.Run
import Idealize.ShloMosaic.Lib.Pipeline.Value

noncomputable section

open Idealize.ShloMosaic Idealize.ShloMosaic.TcCoe Idealize.SL.Sem Idealize.ShloMosaic.StableHlo
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- Positions and velocities joined along the feature axis. -/
def feat (c : Dev nD) : (⟨S100000x64, .f32⟩ : BufTy).Contents (Elt Ideal) :=
  concatenate S100000x64 1 [⟨S100000x32, (m ((c.tc : Thread nD τ).loc main_arg0))⟩, ⟨S100000x32, (m ((c.tc : Thread nD τ).loc main_arg1))⟩] concatenates_S100000x32_S100000x32_S100000x64_d1

/-- The edge list's first row: the source node of every edge. -/
def srcIdx (c : Dev nD) : (⟨S1600000, .i32⟩ : BufTy).Contents (Elt Ideal) :=
  shapeCast _ (extractStridedSlice S1x1600000 ![0, 0] (m ((c.tc : Thread nD τ).loc main_arg2)) slices_S2x1600000_S1x1600000_0_0) shapeCasts_S1x1600000_S1600000

/-- The edge list's second row: the target node of every edge. -/
def tgtIdx (c : Dev nD) : (⟨S1600000, .i32⟩ : BufTy).Contents (Elt Ideal) :=
  shapeCast _ (extractStridedSlice S1x1600000 ![1, 0] (m ((c.tc : Thread nD τ).loc main_arg2)) slices_S2x1600000_S1x1600000_1_0) shapeCasts_S1x1600000_S1600000

/-- A node index with a negative value wrapped by the node count, as a column of start indices. -/
def wrapped (x : (⟨S1600000, .i32⟩ : BufTy).Contents (Elt Ideal)) : (⟨S1600000x1, .i32⟩ : BufTy).Contents (Elt Ideal) :=
  broadcastInDim S1600000x1 ![0] bcast_S1600000_S1600000x1_0 (select (cmpi .slt x (broadcastInDim S1600000 ![] bcast_S_S1600000 (constantI S_ 32 0#32))) (addi x (broadcastInDim S1600000 ![] bcast_S_S1600000 (constantI S_ 32 100000#32))) x)

/-- The target node's features, per edge. -/
def featTgt (c : Dev nD) : (⟨S1600000x64, .f32⟩ : BufTy).Contents (Elt Ideal) :=
  Host.gather gather_S100000x64_S1600000x1_S1600000x64_1_0_n_n_0_1_164 (feat m c) (wrapped (tgtIdx m c))

/-- The source node's features, per edge. -/
def featSrc (c : Dev nD) : (⟨S1600000x64, .f32⟩ : BufTy).Contents (Elt Ideal) :=
  Host.gather gather_S100000x64_S1600000x1_S1600000x64_1_0_n_n_0_1_164 (feat m c) (wrapped (srcIdx m c))

/-- The messages: the perceptron of the two gathered arrays with the halves of the message weights. -/
def messages (c : Dev nD) : (⟨S1600000x64, .f32⟩ : BufTy).Contents (Elt Ideal) :=
  Spec.mlp (featTgt m c) (featSrc m c)
    (Spec.top (m ((c.tc : Thread nD τ).loc main_arg3))) (Spec.bot (m ((c.tc : Thread nD τ).loc main_arg3)))
    (m ((c.tc : Thread nD τ).loc main_arg4)) (m ((c.tc : Thread nD τ).loc main_arg5)) (m ((c.tc : Thread nD τ).loc main_arg6))

/-- The messages summed per target node. -/
def aggregated (c : Dev nD) : (⟨S100000x64, .f32⟩ : BufTy).Contents (Elt Ideal) :=
  Host.scatterAdd (F := Ideal) (φ := .f32) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (tgtIdx m c)) (messages m c)

/-- The result: the perceptron with the prediction head of the node features and the aggregate. -/
def result (c : Dev nD) : Buf (Elt Ideal) ((c.tc : Thread nD τ).loc main_v27) :=
  Spec.head (feat m c) (aggregated m c)
    (Spec.top (m ((c.tc : Thread nD τ).loc main_arg7))) (Spec.bot (m ((c.tc : Thread nD τ).loc main_arg7)))
    (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-! ## The two halves of a 128-row weight matrix -/

/-- The slice of rows 0 … 63 is the specification's upper half. -/
theorem slice_top (w : (⟨S128x64, .f32⟩ : BufTy).Contents (Elt Ideal)) :
    extractStridedSlice S64x64 ![0, 0] w slices_S128x64_S64x64_0_0 = Spec.top w :=
  funext fun i => extractStridedSlice_apply ![0, 0] w slices_S128x64_S64x64_0_0 i
    (Idealize.ShloMosaic.ValueIdx.ix2 (Fin.castAdd 64 (i 0)) (i 1)) (fun a => match a with
      | ⟨0, _⟩ => by show (i 0).val = 0 + (i 0).val; omega
      | ⟨1, _⟩ => by show (i 1).val = 0 + (i 1).val; omega)

/-- The slice of rows 64 … 127 is the specification's lower half. -/
theorem slice_bot (w : (⟨S128x64, .f32⟩ : BufTy).Contents (Elt Ideal)) :
    extractStridedSlice S64x64 ![64, 0] w slices_S128x64_S64x64_64_0 = Spec.bot w :=
  funext fun i => extractStridedSlice_apply ![64, 0] w slices_S128x64_S64x64_64_0 i
    (Idealize.ShloMosaic.ValueIdx.ix2 (Fin.natAdd 64 (i 0)) (i 1)) (fun a => match a with
      | ⟨0, _⟩ => by show 64 + (i 0).val = 64 + (i 0).val; rfl
      | ⟨1, _⟩ => by show (i 1).val = 0 + (i 1).val; omega)

/-! ## The arrays the first pallas_call finds -/

theorem entry0_tgt (c : Dev nD) : V1 m ρ c main_v11 = featTgt m c := by
  show StableHlo.after hostOps0 (W0 m ρ c) (Proc.devRef .tc main_v11) = _
  after_results
  rfl

theorem entry0_src (c : Dev nD) : V1 m ρ c main_v18 = featSrc m c := by
  show StableHlo.after hostOps0 (W0 m ρ c) (Proc.devRef .tc main_v18) = _
  after_results
  rfl

theorem entry0_wa (c : Dev nD) : V1 m ρ c main_v19 = Spec.top (m ((c.tc : Thread nD τ).loc main_arg3)) := by
  rw [← slice_top]
  show StableHlo.after hostOps0 (W0 m ρ c) (Proc.devRef .tc main_v19) = _
  after_results

theorem entry0_wb (c : Dev nD) : V1 m ρ c main_v20 = Spec.bot (m ((c.tc : Thread nD τ).loc main_arg3)) := by
  rw [← slice_bot]
  show StableHlo.after hostOps0 (W0 m ρ c) (Proc.devRef .tc main_v20) = _
  after_results

theorem entry0_arg4 (c : Dev nD) : V1 m ρ c main_arg4 = (m ((c.tc : Thread nD τ).loc main_arg4)) := by
  show StableHlo.after hostOps0 (W0 m ρ c) (Proc.devRef .tc main_arg4) = _
  after_results

theorem entry0_arg5 (c : Dev nD) : V1 m ρ c main_arg5 = (m ((c.tc : Thread nD τ).loc main_arg5)) := by
  show StableHlo.after hostOps0 (W0 m ρ c) (Proc.devRef .tc main_arg5) = _
  after_results

theorem entry0_arg6 (c : Dev nD) : V1 m ρ c main_arg6 = (m ((c.tc : Thread nD τ).loc main_arg6)) := by
  show StableHlo.after hostOps0 (W0 m ρ c) (Proc.devRef .tc main_arg6) = _
  after_results

/-- The first pallas_call's result array at its exit holds the messages. -/
theorem exit0_messages (c : Dev nD) : W2 m ρ c (Proc.devRef .tc main_v21) = messages m c := by
  refine (W2_arr m ρ c 7).trans ?_
  rw [Region0.value (V1 m ρ) c, entry0_tgt, entry0_src, entry0_wa, entry0_wb, entry0_arg4, entry0_arg5, entry0_arg6]
  rfl

/-! ## The arrays the second pallas_call finds -/

/-- A buffer that neither the first pallas_call nor any host operation writes still holds the launch memory's
    contents when the second pallas_call is entered: stated for the node features' buffer, which the first stretch
    of host operations writes once. -/
theorem entry1_feat (c : Dev nD) : V3 m ρ c main_v0 = feat m c := by
  show StableHlo.after hostOps1 (W2 m ρ c) (Proc.devRef .tc main_v0) = _
  after_results
  rw [W2_of_ne m ρ c main_v0 (by decide)]
  show StableHlo.after hostOps0 (W0 m ρ c) (Proc.devRef .tc main_v0) = _
  after_results
  rfl

/-- The target indices as the second stretch of host operations reads them. -/
theorem exit0_tgtIdx (c : Dev nD) : W2 m ρ c (Proc.devRef .tc main_v4) = tgtIdx m c := by
  rw [W2_of_ne m ρ c main_v4 (by decide)]
  show StableHlo.after hostOps0 (W0 m ρ c) (Proc.devRef .tc main_v4) = _
  after_results
  rfl

theorem entry1_aggr (c : Dev nD) : V3 m ρ c main_v24 = aggregated m c := by
  show StableHlo.after hostOps1 (W2 m ρ c) (Proc.devRef .tc main_v24) = _
  after_results
  rw [exit0_messages, exit0_tgtIdx]
  rfl

theorem exit0_arg7 (c : Dev nD) : W2 m ρ c (Proc.devRef .tc main_arg7) = (m ((c.tc : Thread nD τ).loc main_arg7)) := by
  rw [W2_of_ne m ρ c main_arg7 (by decide)]
  show StableHlo.after hostOps0 (W0 m ρ c) (Proc.devRef .tc main_arg7) = _
  after_results

theorem entry1_wa (c : Dev nD) : V3 m ρ c main_v25 = Spec.top (m ((c.tc : Thread nD τ).loc main_arg7)) := by
  rw [← slice_top]
  show StableHlo.after hostOps1 (W2 m ρ c) (Proc.devRef .tc main_v25) = _
  after_results
  rw [exit0_arg7]

theorem entry1_wb (c : Dev nD) : V3 m ρ c main_v26 = Spec.bot (m ((c.tc : Thread nD τ).loc main_arg7)) := by
  rw [← slice_bot]
  show StableHlo.after hostOps1 (W2 m ρ c) (Proc.devRef .tc main_v26) = _
  after_results
  rw [exit0_arg7]

theorem entry1_arg8 (c : Dev nD) : V3 m ρ c main_arg8 = (m ((c.tc : Thread nD τ).loc main_arg8)) := by
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results

theorem entry1_arg9 (c : Dev nD) : V3 m ρ c main_arg9 = (m ((c.tc : Thread nD τ).loc main_arg9)) := by
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results

theorem entry1_arg10 (c : Dev nD) : V3 m ρ c main_arg10 = (m ((c.tc : Thread nD τ).loc main_arg10)) := by
  show StableHlo.after hostOps1 (W2 m ρ c) (Proc.devRef .tc main_arg10) = _
  after_results
  rw [W2_of_ne m ρ c main_arg10 (by decide)]
  show StableHlo.after hostOps0 (W0 m ρ c) (Proc.devRef .tc main_arg10) = _
  after_results

theorem entry1_arg11 (c : Dev nD) : V3 m ρ c main_arg11 = (m ((c.tc : Thread nD τ).loc main_arg11)) := by
  show StableHlo.after hostOps1 (W2 m ρ c) (Proc.devRef .tc main_arg11) = _
  after_results
  rw [W2_of_ne m ρ c main_arg11 (by decide)]
  show StableHlo.after hostOps0 (W0 m ρ c) (Proc.devRef .tc main_arg11) = _
  after_results

theorem entry1_arg12 (c : Dev nD) : V3 m ρ c main_arg12 = (m ((c.tc : Thread nD τ).loc main_arg12)) := by
  show StableHlo.after hostOps1 (W2 m ρ c) (Proc.devRef .tc main_arg12) = _
  after_results
  rw [W2_of_ne m ρ c main_arg12 (by decide)]
  show StableHlo.after hostOps0 (W0 m ρ c) (Proc.devRef .tc main_arg12) = _
  after_results

/-- The second pallas_call's result array at its exit holds `result`. -/
theorem exit1_result (c : Dev nD) : W4 m ρ c (Proc.devRef .tc main_v27) = result m c := by
  refine (W4_arr m ρ c 9).trans ?_
  rw [Region1.value (V3 m ρ) c, entry1_feat, entry1_aggr, entry1_wa, entry1_wb, entry1_arg8, entry1_arg9, entry1_arg10, entry1_arg11, entry1_arg12]
  rfl

/-! ## The run, read -/

/-- Every weakly fair execution of the kernel program terminates, nothing faulting, with the result array at
    `result` and the arguments as launched. -/
theorem run : θ_run defs (onTc (τ := τ) (main (F := Ideal))) ⟨m, fun _ => 0, ρ⟩ (fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (exit1_result m ρ c), (h c).2⟩) (Named.run_named m ρ)

end Cert.KernelIdeal.KValue

end
-- ==== Proof.RefBridge.lean ====
import proofs.«152016_j53644141527375_1_alg».proof.ReferenceIdeal
import proofs.«152016_j53644141527375_1_alg».proof.Proof.Gen.ReferenceIdeal
import proofs.«152016_j53644141527375_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.Bridge

open Cert.ReferenceIdeal Cert.ReferenceIdeal.Gen

variable {F : FTy → Type} [FloatOps F]

/-- The reference's message network as it is written: the two gathered feature arrays joined along the feature
    axis, one 128-row product, the bias, the rectifier, the second product, the second bias. -/
def refMsg (hi hj : (⟨S1600000x64, .f32⟩ : BufTy).Contents (Elt F)) (w1 : (⟨S128x64, .f32⟩ : BufTy).Contents (Elt F)) (b1 : (⟨S64, .f32⟩ : BufTy).Contents (Elt F)) (w2 : (⟨S64x64, .f32⟩ : BufTy).Contents (Elt F)) (b2 : (⟨S64, .f32⟩ : BufTy).Contents (Elt F)) :
    (⟨S1600000x64, .f32⟩ : BufTy).Contents (Elt F) :=
  (addf (Host.dotGeneral dot_S1600000x64_S64x64_S1600000x64_1_0_0_1_n_n none (maximumf (addf (Host.dotGeneral dot_S1600000x128_S128x64_S1600000x64_1_0_0_1_n_n none (concatenate S1600000x128 1 [⟨S1600000x64, hi⟩, ⟨S1600000x64, hj⟩] concatenates_S1600000x64_S1600000x64_S1600000x128_d1) w1) (broadcastInDim S1600000x64 ![0, 1] bcast_S1x64_S1600000x64_0_1 (broadcastInDim S1x64 ![1] bcast_S64_S1x64_1 b1))) (broadcastInDim S1600000x64 ![] bcast_S_S1600000x64 (constant S_ .f32 0x00000000#32))) w2) (broadcastInDim S1600000x64 ![0, 1] bcast_S1x64_S1600000x64_0_1 (broadcastInDim S1x64 ![1] bcast_S64_S1x64_1 b2)))

/-- The reference's update network with its prediction head as it is written. -/
def refUpd (h aggr : (⟨S100000x64, .f32⟩ : BufTy).Contents (Elt F)) (w1 : (⟨S128x64, .f32⟩ : BufTy).Contents (Elt F)) (b1 : (⟨S64, .f32⟩ : BufTy).Contents (Elt F)) (w2 : (⟨S64x64, .f32⟩ : BufTy).Contents (Elt F)) (b2 : (⟨S64, .f32⟩ : BufTy).Contents (Elt F))
    (pw : (⟨S64x32, .f32⟩ : BufTy).Contents (Elt F)) (pb : (⟨S32, .f32⟩ : BufTy).Contents (Elt F)) : (⟨S100000x32, .f32⟩ : BufTy).Contents (Elt F) :=
  addf (Host.dotGeneral dot_S100000x64_S64x32_S100000x32_1_0_0_1_n_n none (addf (Host.dotGeneral dot_S100000x64_S64x64_S100000x64_1_0_0_1_n_n none (maximumf (addf (Host.dotGeneral dot_S100000x128_S128x64_S100000x64_1_0_0_1_n_n none (concatenate S100000x128 1 [⟨S100000x64, h⟩, ⟨S100000x64, aggr⟩] concatenates_S100000x64_S100000x64_S100000x128_d1) w1) (broadcastInDim S100000x64 ![0, 1] bcast_S1x64_S100000x64_0_1 (broadcastInDim S1x64 ![1] bcast_S64_S1x64_1 b1))) (broadcastInDim S100000x64 ![] bcast_S_S100000x64 (constant S_ .f32 0x00000000#32))) w2) (broadcastInDim S100000x64 ![0, 1] bcast_S1x64_S100000x64_0_1 (broadcastInDim S1x64 ![1] bcast_S64_S1x64_1 b2))) pw) (broadcastInDim S100000x32 ![0, 1] bcast_S1x32_S100000x32_0_1 (broadcastInDim S1x32 ![1] bcast_S32_S1x32_1 pb))

/-! ## One operation at an index -/

/-- The dimension numbers of the plain matrix product: rows by the contracted axis, times the contracted axis by
    columns, nothing batched. -/
def IsPlain {n m c : Nat} (D : DotDims (⟨2, ![n, m]⟩ : Shape) (⟨2, ![m, c]⟩ : Shape) (⟨2, ![n, c]⟩ : Shape)) : Prop :=
  D.lhsContracting = [1] ∧ D.rhsContracting = [0] ∧ D.lhsNonContracting = [0] ∧ D.rhsNonContracting = [1] ∧
    D.lhsBatch = [] ∧ D.rhsBatch = []

/-- Those dimension numbers as a record, over whatever evidence of their well-formedness. -/
abbrev plainD {n m c : Nat}
    (wf : DotDims.WF (⟨2, ![n, m]⟩ : Shape) (⟨2, ![m, c]⟩ : Shape) (⟨2, ![n, c]⟩ : Shape) [1] [0] [0] [1] [] []) :
    DotDims (⟨2, ![n, m]⟩ : Shape) (⟨2, ![m, c]⟩ : Shape) (⟨2, ![n, c]⟩ : Shape) :=
  ⟨[1], [0], [0], [1], [], [], wf⟩

section Plain
variable {n m c : Nat}
  (wf : DotDims.WF (⟨2, ![n, m]⟩ : Shape) (⟨2, ![m, c]⟩ : Shape) (⟨2, ![n, c]⟩ : Shape) [1] [0] [0] [1] [] [])

/-- The left operand's row is the result's row … -/
theorem plain_lhs_0 (i : (⟨2, ![n, c]⟩ : Shape).Idx) (k : (plainD wf).contr.Idx) :
    ((plainD wf).lhsIdx i k 0).val = (i 0).val := by
  unfold DotDims.lhsIdx
  rw [dif_neg (show ¬(0 : Fin (⟨2, ![n, m]⟩ : Shape).rank) ∈ (plainD wf).lhsBatch from List.not_mem_nil),
    dif_pos (show (0 : Fin (⟨2, ![n, m]⟩ : Shape).rank) ∈ (plainD wf).lhsNonContracting from List.mem_singleton.mpr rfl)]
  rfl
/-- … its column the contraction position … -/
theorem plain_lhs_1 (i : (⟨2, ![n, c]⟩ : Shape).Idx) (k : (plainD wf).contr.Idx) :
    ((plainD wf).lhsIdx i k 1).val = (k ⟨0, Nat.one_pos⟩).val :=
  (plainD wf).lhsIdx_val_of_single rfl i k
/-- … the right operand's row the contraction position … -/
theorem plain_rhs_0 (i : (⟨2, ![n, c]⟩ : Shape).Idx) (k : (plainD wf).contr.Idx) :
    ((plainD wf).rhsIdx i k 0).val = (k ⟨0, Nat.one_pos⟩).val :=
  (plainD wf).rhsIdx_val_of_single rfl i k
/-- … and its column the result's column. -/
theorem plain_rhs_1 (i : (⟨2, ![n, c]⟩ : Shape).Idx) (k : (plainD wf).contr.Idx) :
    ((plainD wf).rhsIdx i k 1).val = (i 1).val := by
  unfold DotDims.rhsIdx
  rw [dif_neg (show ¬(1 : Fin (⟨2, ![m, c]⟩ : Shape).rank) ∈ (plainD wf).rhsBatch from List.not_mem_nil),
    dif_pos (show (1 : Fin (⟨2, ![m, c]⟩ : Shape).rank) ∈ (plainD wf).rhsNonContracting from List.mem_singleton.mpr rfl)]
  rfl

end Plain

/-- A plain matrix product of extended reals at `(p, q)` is `∑ k, x[p,k] · w[k,q]`: the contraction's one-axis
    index set is `Fin m`, and along it the operands are read at `(p, k)` and `(k, q)`. -/
theorem dot_apply {n m c : Nat} (D : DotDims (⟨2, ![n, m]⟩ : Shape) (⟨2, ![m, c]⟩ : Shape) (⟨2, ![n, c]⟩ : Shape))
    (hD : IsPlain D) (x : FVec Ideal (⟨2, ![n, m]⟩ : Shape) .f32) (w : FVec Ideal (⟨2, ![m, c]⟩ : Shape) .f32)
    (p : Fin n) (q : Fin c) :
    Host.dotGeneral (F := Ideal) D none x w (ix2 p q) = ∑ k : Fin m, x (ix2 p k) * w (ix2 k q) := by
  obtain ⟨lc, rc, ln, rn, lb, rb, wf⟩ := D
  obtain ⟨h1, h2, h3, h4, h5, h6⟩ := hD
  dsimp only at h1 h2 h3 h4 h5 h6
  subst h1 h2 h3 h4 h5 h6
  show FloatOps.dotGeneral (plainD wf) none .single x w (ix2 p q) = _
  rw [Ideal.dotGeneral_apply, ← Equiv.sum_comp (contrEquiv1 (plainD wf) m rfl rfl).symm]
  refine Finset.sum_congr rfl fun k _ => ?_
  have hk := contrEquiv1_symm_val (plainD wf) m rfl rfl k
  have el : (plainD wf).lhsIdx (ix2 p q) ((contrEquiv1 (plainD wf) m rfl rfl).symm k) = ix2 p k :=
    funext fun a => Fin.ext (by
      match a with
      | ⟨0, _⟩ => exact plain_lhs_0 wf _ _
      | ⟨1, _⟩ => exact (plain_lhs_1 wf _ _).trans hk)
  have er : (plainD wf).rhsIdx (ix2 p q) ((contrEquiv1 (plainD wf) m rfl rfl).symm k) = ix2 k q :=
    funext fun a => Fin.ext (by
      match a with
      | ⟨0, _⟩ => exact (plain_rhs_0 wf _ _).trans hk
      | ⟨1, _⟩ => exact plain_rhs_1 wf _ _)
  rw [el, er]

/-- A bias vector broadcast first to one row and then down the rows reads, at `(p, q)`, its entry `q`. -/
theorem bias_apply {α : Type} {n c : Nat} (hc : c ≠ 1)
    (h1 : (⟨1, ![c]⟩ : Shape).BroadcastsInDim (⟨2, ![1, c]⟩ : Shape) (![1] : Fin 1 → Fin 2))
    (h2 : (⟨2, ![1, c]⟩ : Shape).BroadcastsInDim (⟨2, ![n, c]⟩ : Shape) (![0, 1] : Fin 2 → Fin 2))
    (b : (⟨1, ![c]⟩ : Shape).Idx → α) (p : Fin n) (q : Fin c) :
    broadcastInDim (⟨2, ![n, c]⟩ : Shape) ![0, 1] h2 (broadcastInDim (⟨2, ![1, c]⟩ : Shape) ![1] h1 b) (ix2 p q) = b (ix1 q) := by
  refine (broadcastInDim_apply _ h2 _ (ix2 p q) (ix2 (0 : Fin 1) q) (fun a => match a with
    | ⟨0, _⟩ => by show 0 = if (1 : Nat) = 1 then 0 else p.val; rw [if_pos rfl]
    | ⟨1, _⟩ => by show q.val = if c = 1 then 0 else q.val; rw [if_neg hc])).trans ?_
  exact broadcastInDim_apply _ h1 b (ix2 (0 : Fin 1) q) (ix1 q) (fun a => match a with
    | ⟨0, _⟩ => by show q.val = if c = 1 then 0 else q.val; rw [if_neg hc])

/-- The scalar constant with the all-zero word, broadcast to any shape, is the extended real `0` everywhere. -/
theorem zero_apply {t : Shape} (hz : S_.BroadcastsInDim t (![] : Fin 0 → Fin t.rank)) (i : t.Idx) :
    broadcastInDim t ![] hz (constant (F := Ideal) S_ .f32 0x00000000#32) i = (0 : EReal) :=
  (broadcastInDim_apply _ hz _ i ix0 (fun a => a.elim0)).trans Ideal.ofBits_zero_f32

/-- Two arrays of 64 columns joined along the columns: a column below 64 reads the first array … -/
theorem concat_left {α : Type} {n : Nat}
    (hc : Shape.Concatenates [(⟨2, ![n, 64]⟩ : Shape), (⟨2, ![n, 64]⟩ : Shape)] (⟨2, ![n, 128]⟩ : Shape) 1)
    (x y : (⟨2, ![n, 64]⟩ : Shape).Idx → α) (p : Fin n) (a : Fin 64) :
    concatenate (⟨2, ![n, 128]⟩ : Shape) 1 [⟨(⟨2, ![n, 64]⟩ : Shape), x⟩, ⟨(⟨2, ![n, 64]⟩ : Shape), y⟩] hc (ix2 p (Fin.castAdd 64 a)) = x (ix2 p a) :=
  concatenate_pair_apply_left 1 x y hc (ix2 p (Fin.castAdd 64 a)) rfl (ix2 p a) (fun b => match b with
    | ⟨0, _⟩ => rfl
    | ⟨1, _⟩ => rfl)

/-- … and column `64 + a` reads the second array at column `a`. -/
theorem concat_right {α : Type} {n : Nat}
    (hc : Shape.Concatenates [(⟨2, ![n, 64]⟩ : Shape), (⟨2, ![n, 64]⟩ : Shape)] (⟨2, ![n, 128]⟩ : Shape) 1)
    (x y : (⟨2, ![n, 64]⟩ : Shape).Idx → α) (p : Fin n) (a : Fin 64) :
    concatenate (⟨2, ![n, 128]⟩ : Shape) 1 [⟨(⟨2, ![n, 64]⟩ : Shape), x⟩, ⟨(⟨2, ![n, 64]⟩ : Shape), y⟩] hc (ix2 p (Fin.natAdd 64 a)) = y (ix2 p a) :=
  concatenate_pair_apply_right 1 x y hc (ix2 p (Fin.natAdd 64 a)) rfl rfl (ix2 p a) (fun b => match b with
    | ⟨0, _⟩ => fun _ => rfl
    | ⟨1, _⟩ => fun hb => absurd rfl hb) (by show a.val + 64 = 64 + a.val; omega)

/-! ## The two networks, for any number of rows -/

section Net
variable {n : Nat}

/-- The hidden layer as the reference writes it, over `n` rows: the two inputs joined along the columns, one product
    with the 128-row weight matrix, the bias, the maximum with zero. -/
def hid (D1 : DotDims (⟨2, ![n, 128]⟩ : Shape) S128x64 (⟨2, ![n, 64]⟩ : Shape))
    (hc : Shape.Concatenates [(⟨2, ![n, 64]⟩ : Shape), (⟨2, ![n, 64]⟩ : Shape)] (⟨2, ![n, 128]⟩ : Shape) 1)
    (hb1 : S64.BroadcastsInDim S1x64 (![1] : Fin 1 → Fin S1x64.rank))
    (hb2 : S1x64.BroadcastsInDim (⟨2, ![n, 64]⟩ : Shape) (![0, 1] : Fin 2 → Fin (⟨2, ![n, 64]⟩ : Shape).rank))
    (hz : S_.BroadcastsInDim (⟨2, ![n, 64]⟩ : Shape) (![] : Fin 0 → Fin (⟨2, ![n, 64]⟩ : Shape).rank))
    (x y : FVec F (⟨2, ![n, 64]⟩ : Shape) .f32) (w1 : FVec F S128x64 .f32) (b1 : FVec F S64 .f32) :
    FVec F (⟨2, ![n, 64]⟩ : Shape) .f32 :=
  maximumf (addf (Host.dotGeneral D1 none (concatenate (⟨2, ![n, 128]⟩ : Shape) 1 [⟨(⟨2, ![n, 64]⟩ : Shape), x⟩, ⟨(⟨2, ![n, 64]⟩ : Shape), y⟩] hc) w1)
      (broadcastInDim (⟨2, ![n, 64]⟩ : Shape) ![0, 1] hb2 (broadcastInDim S1x64 ![1] hb1 b1)))
    (broadcastInDim (⟨2, ![n, 64]⟩ : Shape) ![] hz (constant S_ .f32 0x00000000#32))

/-- The perceptron as the reference writes it, over `n` rows: the hidden layer, the second product, the second bias. -/
def net (D1 : DotDims (⟨2, ![n, 128]⟩ : Shape) S128x64 (⟨2, ![n, 64]⟩ : Shape))
    (D2 : DotDims (⟨2, ![n, 64]⟩ : Shape) S64x64 (⟨2, ![n, 64]⟩ : Shape))
    (hc : Shape.Concatenates [(⟨2, ![n, 64]⟩ : Shape), (⟨2, ![n, 64]⟩ : Shape)] (⟨2, ![n, 128]⟩ : Shape) 1)
    (hb1 : S64.BroadcastsInDim S1x64 (![1] : Fin 1 → Fin S1x64.rank))
    (hb2 : S1x64.BroadcastsInDim (⟨2, ![n, 64]⟩ : Shape) (![0, 1] : Fin 2 → Fin (⟨2, ![n, 64]⟩ : Shape).rank))
    (hz : S_.BroadcastsInDim (⟨2, ![n, 64]⟩ : Shape) (![] : Fin 0 → Fin (⟨2, ![n, 64]⟩ : Shape).rank))
    (x y : FVec F (⟨2, ![n, 64]⟩ : Shape) .f32) (w1 : FVec F S128x64 .f32) (b1 : FVec F S64 .f32)
    (w2 : FVec F S64x64 .f32) (b2 : FVec F S64 .f32) : FVec F (⟨2, ![n, 64]⟩ : Shape) .f32 :=
  addf (Host.dotGeneral D2 none (hid D1 hc hb1 hb2 hz x y w1 b1) w2)
    (broadcastInDim (⟨2, ![n, 64]⟩ : Shape) ![0, 1] hb2 (broadcastInDim S1x64 ![1] hb1 b2))

/-- The hidden layer at `(p, k)` is the specification's: the 128-term sum against the joined array splits at 64 into
    the sum of `x[p,a] · w1[a,k]` over the upper half of `w1` and of `y[p,a] · w1[64+a,k]` over the lower half; the
    broadcast bias is `b1[k]` and the broadcast constant is `0`. -/
theorem hid_apply (D1 : DotDims (⟨2, ![n, 128]⟩ : Shape) S128x64 (⟨2, ![n, 64]⟩ : Shape)) (hD1 : IsPlain D1)
    (hc : Shape.Concatenates [(⟨2, ![n, 64]⟩ : Shape), (⟨2, ![n, 64]⟩ : Shape)] (⟨2, ![n, 128]⟩ : Shape) 1)
    (hb1 : S64.BroadcastsInDim S1x64 (![1] : Fin 1 → Fin S1x64.rank))
    (hb2 : S1x64.BroadcastsInDim (⟨2, ![n, 64]⟩ : Shape) (![0, 1] : Fin 2 → Fin (⟨2, ![n, 64]⟩ : Shape).rank))
    (hz : S_.BroadcastsInDim (⟨2, ![n, 64]⟩ : Shape) (![] : Fin 0 → Fin (⟨2, ![n, 64]⟩ : Shape).rank))
    (x y : FVec Ideal (⟨2, ![n, 64]⟩ : Shape) .f32) (w1 : FVec Ideal S128x64 .f32) (b1 : FVec Ideal S64 .f32)
    (p : Fin n) (k : Fin 64) :
    hid (F := Ideal) D1 hc hb1 hb2 hz x y w1 b1 (ix2 p k) = Spec.hidden x y (Spec.top w1) (Spec.bot w1) b1 p k := by
  unfold hid Spec.hidden
  refine (maximumf_apply _ _ _).trans ?_
  refine congrArg₂ max ?_ (zero_apply hz _)
  refine (addf_apply _ _ _).trans ?_
  refine congrArg₂ (· + ·) ?_ (bias_apply (by decide) hb1 hb2 b1 p k)
  refine (dot_apply D1 hD1 _ w1 p k).trans ?_
  refine (Spec.sum_split _).trans ?_
  refine congrArg₂ (· + ·) (Finset.sum_congr rfl fun a _ => ?_) (Finset.sum_congr rfl fun a _ => ?_)
  · exact congrArg (· * _) (concat_left hc x y p a)
  · exact congrArg (· * _) (concat_right hc x y p a)

/-- The perceptron as written is the specification's perceptron on the two halves of the first weight matrix. -/
theorem net_eq (D1 : DotDims (⟨2, ![n, 128]⟩ : Shape) S128x64 (⟨2, ![n, 64]⟩ : Shape)) (hD1 : IsPlain D1)
    (D2 : DotDims (⟨2, ![n, 64]⟩ : Shape) S64x64 (⟨2, ![n, 64]⟩ : Shape)) (hD2 : IsPlain D2)
    (hc : Shape.Concatenates [(⟨2, ![n, 64]⟩ : Shape), (⟨2, ![n, 64]⟩ : Shape)] (⟨2, ![n, 128]⟩ : Shape) 1)
    (hb1 : S64.BroadcastsInDim S1x64 (![1] : Fin 1 → Fin S1x64.rank))
    (hb2 : S1x64.BroadcastsInDim (⟨2, ![n, 64]⟩ : Shape) (![0, 1] : Fin 2 → Fin (⟨2, ![n, 64]⟩ : Shape).rank))
    (hz : S_.BroadcastsInDim (⟨2, ![n, 64]⟩ : Shape) (![] : Fin 0 → Fin (⟨2, ![n, 64]⟩ : Shape).rank))
    (x y : FVec Ideal (⟨2, ![n, 64]⟩ : Shape) .f32) (w1 : FVec Ideal S128x64 .f32) (b1 : FVec Ideal S64 .f32)
    (w2 : FVec Ideal S64x64 .f32) (b2 : FVec Ideal S64 .f32) :
    net (F := Ideal) D1 D2 hc hb1 hb2 hz x y w1 b1 w2 b2 = Spec.mlp x y (Spec.top w1) (Spec.bot w1) b1 w2 b2 := by
  funext j
  obtain ⟨p, q, rfl⟩ : ∃ (p : Fin n) (q : Fin 64), j = ix2 p q := ⟨j 0, j 1, eq_ix2 j⟩
  unfold net Spec.mlp
  refine (addf_apply _ _ _).trans ?_
  refine congrArg₂ (· + ·) ?_ (bias_apply (by decide) hb1 hb2 b2 p q)
  refine (dot_apply D2 hD2 _ w2 p q).trans ?_
  exact Finset.sum_congr rfl fun k _ => congrArg (· * _) (hid_apply D1 hD1 hc hb1 hb2 hz x y w1 b1 p k)

end Net

/-- Index by index the reference's message network is the specification's perceptron on the upper and lower halves
    of the first weight matrix: the 128-term sum against the joined array splits at 64. -/
theorem refMsg_eq (hi hj : (⟨S1600000x64, .f32⟩ : BufTy).Contents (Elt Ideal)) (w1 : (⟨S128x64, .f32⟩ : BufTy).Contents (Elt Ideal)) (b1 : (⟨S64, .f32⟩ : BufTy).Contents (Elt Ideal)) (w2 : (⟨S64x64, .f32⟩ : BufTy).Contents (Elt Ideal)) (b2 : (⟨S64, .f32⟩ : BufTy).Contents (Elt Ideal)) :
    refMsg (F := Ideal) hi hj w1 b1 w2 b2 = Spec.mlp hi hj (Spec.top w1) (Spec.bot w1) b1 w2 b2 :=
  net_eq (n := 1600000) dot_S1600000x128_S128x64_S1600000x64_1_0_0_1_n_n ⟨rfl, rfl, rfl, rfl, rfl, rfl⟩
    dot_S1600000x64_S64x64_S1600000x64_1_0_0_1_n_n ⟨rfl, rfl, rfl, rfl, rfl, rfl⟩
    concatenates_S1600000x64_S1600000x64_S1600000x128_d1 bcast_S64_S1x64_1 bcast_S1x64_S1600000x64_0_1 bcast_S_S1600000x64
    hi hj w1 b1 w2 b2

/-- The same for the update network and its head. -/
theorem refUpd_eq (h aggr : (⟨S100000x64, .f32⟩ : BufTy).Contents (Elt Ideal)) (w1 : (⟨S128x64, .f32⟩ : BufTy).Contents (Elt Ideal)) (b1 : (⟨S64, .f32⟩ : BufTy).Contents (Elt Ideal)) (w2 : (⟨S64x64, .f32⟩ : BufTy).Contents (Elt Ideal)) (b2 : (⟨S64, .f32⟩ : BufTy).Contents (Elt Ideal))
    (pw : (⟨S64x32, .f32⟩ : BufTy).Contents (Elt Ideal)) (pb : (⟨S32, .f32⟩ : BufTy).Contents (Elt Ideal)) :
    refUpd (F := Ideal) h aggr w1 b1 w2 b2 pw pb = Spec.head h aggr (Spec.top w1) (Spec.bot w1) b1 w2 b2 pw pb := by
  funext j
  obtain ⟨p, q, rfl⟩ : ∃ (p : Fin 100000) (q : Fin 32), j = ix2 p q := ⟨j 0, j 1, eq_ix2 j⟩
  unfold refUpd Spec.head
  refine (addf_apply _ _ _).trans ?_
  refine congrArg₂ (· + ·) ?_ (bias_apply (by decide) bcast_S32_S1x32_1 bcast_S1x32_S100000x32_0_1 pb p q)
  refine (dot_apply dot_S100000x64_S64x32_S100000x32_1_0_0_1_n_n ⟨rfl, rfl, rfl, rfl, rfl, rfl⟩ _ pw p q).trans ?_
  exact Finset.sum_congr rfl fun k _ => congrArg (· * _) (congrFun
    (net_eq (n := 100000) dot_S100000x128_S128x64_S100000x64_1_0_0_1_n_n ⟨rfl, rfl, rfl, rfl, rfl, rfl⟩
      dot_S100000x64_S64x64_S100000x64_1_0_0_1_n_n ⟨rfl, rfl, rfl, rfl, rfl, rfl⟩
      concatenates_S100000x64_S100000x64_S100000x128_d1 bcast_S64_S1x64_1 bcast_S1x64_S100000x64_0_1 bcast_S_S100000x64
      h aggr w1 b1 w2 b2) (ix2 p k))

end Cert.ReferenceIdeal.Bridge

end
-- ==== Proof.RefValue.lean ====
/-
  The reference program's result, read as the specification's functions.

  Its run ends with the result array at the fold of its 55 host operations over the launch memory. The fold is
  evaluated in three stretches, cut before each concatenation of computed arrays: the first stretch makes the node
  features (positions and velocities joined), the two index columns (a negative index wrapped by the node count)
  and the two gathered arrays; the second is the message network on the two gathered arrays and the scatter-add of
  its result over the target indices; the third is the update network with its prediction head on the node features
  and that sum. Each stretch is read from ANY contents `W` of the buffers before it, so the three compose by
  substitution. The two networks are the specification's perceptron and head on the halves of their first weight
  matrix (`Bridge.refMsg_eq`, `Bridge.refUpd_eq`).
-/
import proofs.«152016_j53644141527375_1_alg».proof.Proof.RefRun
import proofs.«152016_j53644141527375_1_alg».proof.Proof.RefBridge
import Idealize.ShloMosaic.Lib.Pipeline.Frame

noncomputable section

open Idealize.ShloMosaic Idealize.ShloMosaic.TcCoe Idealize.SL.Sem Idealize.ShloMosaic.StableHlo

namespace Cert.ReferenceIdeal.RefValue

open Cert.ReferenceIdeal Cert.ReferenceIdeal.Gen Cert.ReferenceIdeal.RunP

variable {F : FTy → Type} [FloatOps F]

/-- The first stretch: node features, index columns, the two gathers. -/
abbrev ops1 : List (HloOp τ sig (Elt F)) :=
  [ binary main_arg0 main_arg1 main_v0 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)),
    unary main_arg2 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    unary main_arg2 main_v3 ((extractStridedSlice S1x1600000 ![1, 0] · slices_S2x1600000_S1x1600000_1_0) : (⟨S2x1600000, .i32⟩ : BufTy).Contents (Elt F) → (⟨S1x1600000, .i32⟩ : BufTy).Contents (Elt F)),
    reshape main_v3 main_v4 rfl shapeCasts_S1x1600000_S1600000,
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_v4 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v7 (broadcastInDim S1600000 ![] bcast_S_S1600000 : (⟨S_, .i32⟩ : BufTy).Contents (Elt F) → (⟨S1600000, .i32⟩ : BufTy).Contents (Elt F)),
    binary main_v4 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_v4 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    binary main_v0 main_v10 main_v11 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_c_1 (constantI S_ 32 0#32),
    unary main_c_1 main_v12 (broadcastInDim S1600000 ![] bcast_S_S1600000 : (⟨S_, .i32⟩ : BufTy).Contents (Elt F) → (⟨S1600000, .i32⟩ : BufTy).Contents (Elt F)),
    binary main_v2 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v14 (broadcastInDim S1600000 ![] bcast_S_S1600000 : (⟨S_, .i32⟩ : BufTy).Contents (Elt F) → (⟨S1600000, .i32⟩ : BufTy).Contents (Elt F)),
    binary main_v2 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v2 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_v0 main_v17 main_v18 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) ]

/-- The second stretch: the message network and the scatter-add. -/
abbrev ops2 : List (HloOp τ sig (Elt F)) :=
  [ binary main_v11 main_v18 main_v19 ((fun a b => concatenate S1600000x128 1 [⟨S1600000x64, a⟩, ⟨S1600000x64, b⟩] concatenates_S1600000x64_S1600000x64_S1600000x128_d1) : (⟨S1600000x64, .f32⟩ : BufTy).Contents (Elt F) → (⟨S1600000x64, .f32⟩ : BufTy).Contents (Elt F) → (⟨S1600000x128, .f32⟩ : BufTy).Contents (Elt F)),
    binary main_v19 main_arg3 main_v20 ((fun l r => Host.dotGeneral dot_S1600000x128_S128x64_S1600000x64_1_0_0_1_n_n none l r) : (⟨S1600000x128, .f32⟩ : BufTy).Contents (Elt F) → (⟨S128x64, .f32⟩ : BufTy).Contents (Elt F) → (⟨S1600000x64, .f32⟩ : BufTy).Contents (Elt F)),
    unary main_arg4 main_v21 (broadcastInDim S1x64 ![1] bcast_S64_S1x64_1 : (⟨S64, .f32⟩ : BufTy).Contents (Elt F) → (⟨S1x64, .f32⟩ : BufTy).Contents (Elt F)),
    unary main_v21 main_v22 (broadcastInDim S1600000x64 ![0, 1] bcast_S1x64_S1600000x64_0_1 : (⟨S1x64, .f32⟩ : BufTy).Contents (Elt F) → (⟨S1600000x64, .f32⟩ : BufTy).Contents (Elt F)),
    binary main_v20 main_v22 main_v23 (addf : (⟨S1600000x64, .f32⟩ : BufTy).Contents (Elt F) → (⟨S1600000x64, .f32⟩ : BufTy).Contents (Elt F) → (⟨S1600000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1600000x64, .f32⟩) main_call0_v0) (broadcastInDim S1600000x64 ![] bcast_S_S1600000x64),
    TRef.binary (TRef.of (T := ⟨S1600000x64, .f32⟩) main_v23) (TRef.of (T := ⟨S1600000x64, .f32⟩) main_call0_v0) (TRef.of (T := ⟨S1600000x64, .f32⟩) main_v24) maximumf,
    binary main_v24 main_arg5 main_v25 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    unary main_arg6 main_v26 (broadcastInDim S1x64 ![1] bcast_S64_S1x64_1 : (⟨S64, .f32⟩ : BufTy).Contents (Elt F) → (⟨S1x64, .f32⟩ : BufTy).Contents (Elt F)),
    unary main_v26 main_v27 (broadcastInDim S1600000x64 ![0, 1] bcast_S1x64_S1600000x64_0_1 : (⟨S1x64, .f32⟩ : BufTy).Contents (Elt F) → (⟨S1600000x64, .f32⟩ : BufTy).Contents (Elt F)),
    binary main_v25 main_v27 main_v28 (addf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v29 (broadcastInDim S100000x64 ![] bcast_S_S100000x64 : (⟨S_, .f32⟩ : BufTy).Contents (Elt F) → (⟨S100000x64, .f32⟩ : BufTy).Contents (Elt F)),
    unary main_v4 main_v30 (broadcastInDim S1600000x1 ![0] bcast_S1600000_S1600000x1_0 : (⟨S1600000, .i32⟩ : BufTy).Contents (Elt F) → (⟨S1600000x1, .i32⟩ : BufTy).Contents (Elt F)),
    ternary main_v29 main_v30 main_v28 main_v31 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The third stretch: the update network and the prediction head. -/
abbrev ops3 : List (HloOp τ sig (Elt F)) :=
  [ binary main_v0 main_v31 main_v32 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    binary main_v32 main_arg7 main_v33 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg8 main_v34 (broadcastInDim S1x64 ![1] bcast_S64_S1x64_1 : (⟨S64, .f32⟩ : BufTy).Contents (Elt F) → (⟨S1x64, .f32⟩ : BufTy).Contents (Elt F)),
    unary main_v34 main_v35 (broadcastInDim S100000x64 ![0, 1] bcast_S1x64_S100000x64_0_1 : (⟨S1x64, .f32⟩ : BufTy).Contents (Elt F) → (⟨S100000x64, .f32⟩ : BufTy).Contents (Elt F)),
    binary main_v33 main_v35 main_v36 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v36) (TRef.of (T := ⟨S100000x64, .f32⟩) main_call1_v0) (TRef.of (T := ⟨S100000x64, .f32⟩) main_v37) maximumf,
    binary main_v37 main_arg9 main_v38 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg10 main_v39 (broadcastInDim S1x64 ![1] bcast_S64_S1x64_1 : (⟨S64, .f32⟩ : BufTy).Contents (Elt F) → (⟨S1x64, .f32⟩ : BufTy).Contents (Elt F)),
    unary main_v39 main_v40 (broadcastInDim S100000x64 ![0, 1] bcast_S1x64_S100000x64_0_1 : (⟨S1x64, .f32⟩ : BufTy).Contents (Elt F) → (⟨S100000x64, .f32⟩ : BufTy).Contents (Elt F)),
    binary main_v38 main_v40 main_v41 (addf : (⟨S100000x64, .f32⟩ : BufTy).Contents (Elt F) → (⟨S100000x64, .f32⟩ : BufTy).Contents (Elt F) → (⟨S100000x64, .f32⟩ : BufTy).Contents (Elt F)),
    binary main_v41 main_arg11 main_v42 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg12 main_v43 (broadcastInDim S1x32 ![1] bcast_S32_S1x32_1 : (⟨S32, .f32⟩ : BufTy).Contents (Elt F) → (⟨S1x32, .f32⟩ : BufTy).Contents (Elt F)),
    unary main_v43 main_v44 (broadcastInDim S100000x32 ![0, 1] bcast_S1x32_S100000x32_0_1 : (⟨S1x32, .f32⟩ : BufTy).Contents (Elt F) → (⟨S100000x32, .f32⟩ : BufTy).Contents (Elt F)),
    binary main_v42 main_v44 main_v45 (addf : (⟨S100000x32, .f32⟩ : BufTy).Contents (Elt F) → (⟨S100000x32, .f32⟩ : BufTy).Contents (Elt F) → (⟨S100000x32, .f32⟩ : BufTy).Contents (Elt F)) ]

/-- The program's operation list is the three stretches in order. -/
theorem ops_cut : (ops : List (HloOp τ sig (Elt F))) = ops1 ++ (ops2 ++ ops3) := rfl

variable (W : Valuation τ sig (Elt F))

/-! ## The third stretch, from any contents -/

set_option maxHeartbeats 2000000 in
theorem s3_result : StableHlo.after ops3 W (Proc.devRef .tc main_v45)
    = Bridge.refUpd (W (Proc.devRef .tc main_v0)) (W (Proc.devRef .tc main_v31)) (W (Proc.devRef .tc main_arg7)) (W (Proc.devRef .tc main_arg8)) (W (Proc.devRef .tc main_arg9)) (W (Proc.devRef .tc main_arg10)) (W (Proc.devRef .tc main_arg11)) (W (Proc.devRef .tc main_arg12)) := by
  after_results_simp
  try simp only [TRef.ofBuf, TRef.toBuf, cast_eq]
  rfl

/-! ## The second stretch, from any contents -/

set_option maxHeartbeats 2000000 in
theorem s2_sum : StableHlo.after ops2 W (Proc.devRef .tc main_v31)
    = (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (W (Proc.devRef .tc main_v4))) (Bridge.refMsg (W (Proc.devRef .tc main_v11)) (W (Proc.devRef .tc main_v18)) (W (Proc.devRef .tc main_arg3)) (W (Proc.devRef .tc main_arg4)) (W (Proc.devRef .tc main_arg5)) (W (Proc.devRef .tc main_arg6)))) := by
  after_results_simp
  try simp only [TRef.ofBuf, TRef.toBuf, cast_eq]
  rfl

theorem s2_keep_main_v0 : StableHlo.after ops2 W (Proc.devRef .tc main_v0) = W (Proc.devRef .tc main_v0) := by
  after_results
theorem s2_keep_main_arg7 : StableHlo.after ops2 W (Proc.devRef .tc main_arg7) = W (Proc.devRef .tc main_arg7) := by
  after_results
theorem s2_keep_main_arg8 : StableHlo.after ops2 W (Proc.devRef .tc main_arg8) = W (Proc.devRef .tc main_arg8) := by
  after_results
theorem s2_keep_main_arg9 : StableHlo.after ops2 W (Proc.devRef .tc main_arg9) = W (Proc.devRef .tc main_arg9) := by
  after_results
theorem s2_keep_main_arg10 : StableHlo.after ops2 W (Proc.devRef .tc main_arg10) = W (Proc.devRef .tc main_arg10) := by
  after_results
theorem s2_keep_main_arg11 : StableHlo.after ops2 W (Proc.devRef .tc main_arg11) = W (Proc.devRef .tc main_arg11) := by
  after_results
theorem s2_keep_main_arg12 : StableHlo.after ops2 W (Proc.devRef .tc main_arg12) = W (Proc.devRef .tc main_arg12) := by
  after_results

/-! ## The first stretch, from any contents -/

theorem s1_feat : StableHlo.after ops1 W (Proc.devRef .tc main_v0) = (concatenate S100000x64 1 [⟨S100000x32, (W (Proc.devRef .tc main_arg0))⟩, ⟨S100000x32, (W (Proc.devRef .tc main_arg1))⟩] concatenates_S100000x32_S100000x32_S100000x64_d1) := by
  after_results

theorem s1_tgtIdx : StableHlo.after ops1 W (Proc.devRef .tc main_v4) = (shapeCast _ (extractStridedSlice S1x1600000 ![1, 0] (W (Proc.devRef .tc main_arg2)) slices_S2x1600000_S1x1600000_1_0) shapeCasts_S1x1600000_S1600000) := by
  after_results
  rfl

theorem s1_featTgt : StableHlo.after ops1 W (Proc.devRef .tc main_v11)
    = (Host.gather gather_S100000x64_S1600000x1_S1600000x64_1_0_n_n_0_1_164 (concatenate S100000x64 1 [⟨S100000x32, (W (Proc.devRef .tc main_arg0))⟩, ⟨S100000x32, (W (Proc.devRef .tc main_arg1))⟩] concatenates_S100000x32_S100000x32_S100000x64_d1) (broadcastInDim S1600000x1 ![0] bcast_S1600000_S1600000x1_0 (select (cmpi .slt (shapeCast _ (extractStridedSlice S1x1600000 ![1, 0] (W (Proc.devRef .tc main_arg2)) slices_S2x1600000_S1x1600000_1_0) shapeCasts_S1x1600000_S1600000) (broadcastInDim S1600000 ![] bcast_S_S1600000 (constantI S_ 32 0#32))) (addi (shapeCast _ (extractStridedSlice S1x1600000 ![1, 0] (W (Proc.devRef .tc main_arg2)) slices_S2x1600000_S1x1600000_1_0) shapeCasts_S1x1600000_S1600000) (broadcastInDim S1600000 ![] bcast_S_S1600000 (constantI S_ 32 100000#32))) (shapeCast _ (extractStridedSlice S1x1600000 ![1, 0] (W (Proc.devRef .tc main_arg2)) slices_S2x1600000_S1x1600000_1_0) shapeCasts_S1x1600000_S1600000)))) := by
  after_results_simp
  rfl

theorem s1_featSrc : StableHlo.after ops1 W (Proc.devRef .tc main_v18)
    = (Host.gather gather_S100000x64_S1600000x1_S1600000x64_1_0_n_n_0_1_164 (concatenate S100000x64 1 [⟨S100000x32, (W (Proc.devRef .tc main_arg0))⟩, ⟨S100000x32, (W (Proc.devRef .tc main_arg1))⟩] concatenates_S100000x32_S100000x32_S100000x64_d1) (broadcastInDim S1600000x1 ![0] bcast_S1600000_S1600000x1_0 (select (cmpi .slt (shapeCast _ (extractStridedSlice S1x1600000 ![0, 0] (W (Proc.devRef .tc main_arg2)) slices_S2x1600000_S1x1600000_0_0) shapeCasts_S1x1600000_S1600000) (broadcastInDim S1600000 ![] bcast_S_S1600000 (constantI S_ 32 0#32))) (addi (shapeCast _ (extractStridedSlice S1x1600000 ![0, 0] (W (Proc.devRef .tc main_arg2)) slices_S2x1600000_S1x1600000_0_0) shapeCasts_S1x1600000_S1600000) (broadcastInDim S1600000 ![] bcast_S_S1600000 (constantI S_ 32 100000#32))) (shapeCast _ (extractStridedSlice S1x1600000 ![0, 0] (W (Proc.devRef .tc main_arg2)) slices_S2x1600000_S1x1600000_0_0) shapeCasts_S1x1600000_S1600000)))) := by
  after_results_simp
  rfl

theorem s1_keep_main_arg3 : StableHlo.after ops1 W (Proc.devRef .tc main_arg3) = W (Proc.devRef .tc main_arg3) := by
  after_results
theorem s1_keep_main_arg4 : StableHlo.after ops1 W (Proc.devRef .tc main_arg4) = W (Proc.devRef .tc main_arg4) := by
  after_results
theorem s1_keep_main_arg5 : StableHlo.after ops1 W (Proc.devRef .tc main_arg5) = W (Proc.devRef .tc main_arg5) := by
  after_results
theorem s1_keep_main_arg6 : StableHlo.after ops1 W (Proc.devRef .tc main_arg6) = W (Proc.devRef .tc main_arg6) := by
  after_results
theorem s1_keep_main_arg7 : StableHlo.after ops1 W (Proc.devRef .tc main_arg7) = W (Proc.devRef .tc main_arg7) := by
  after_results
theorem s1_keep_main_arg8 : StableHlo.after ops1 W (Proc.devRef .tc main_arg8) = W (Proc.devRef .tc main_arg8) := by
  after_results
theorem s1_keep_main_arg9 : StableHlo.after ops1 W (Proc.devRef .tc main_arg9) = W (Proc.devRef .tc main_arg9) := by
  after_results
theorem s1_keep_main_arg10 : StableHlo.after ops1 W (Proc.devRef .tc main_arg10) = W (Proc.devRef .tc main_arg10) := by
  after_results
theorem s1_keep_main_arg11 : StableHlo.after ops1 W (Proc.devRef .tc main_arg11) = W (Proc.devRef .tc main_arg11) := by
  after_results
theorem s1_keep_main_arg12 : StableHlo.after ops1 W (Proc.devRef .tc main_arg12) = W (Proc.devRef .tc main_arg12) := by
  after_results

/-! ## The whole fold -/

variable (m : (ℓ : Loc nD τ sig) → Buf (Elt F) ℓ)

/-- The fold of all the operations over the launch memory, with its two networks named. -/
theorem res_named (c : Dev nD) : StableHlo.after ops (launchContents m c) (Proc.devRef .tc main_v45) =
    Bridge.refUpd (concatenate S100000x64 1 [⟨S100000x32, (launchContents m c (Proc.devRef .tc main_arg0))⟩, ⟨S100000x32, (launchContents m c (Proc.devRef .tc main_arg1))⟩] concatenates_S100000x32_S100000x32_S100000x64_d1) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] (launchContents m c (Proc.devRef .tc main_arg2)) slices_S2x1600000_S1x1600000_1_0) shapeCasts_S1x1600000_S1600000)) (Bridge.refMsg (Host.gather gather_S100000x64_S1600000x1_S1600000x64_1_0_n_n_0_1_164 (concatenate S100000x64 1 [⟨S100000x32, (launchContents m c (Proc.devRef .tc main_arg0))⟩, ⟨S100000x32, (launchContents m c (Proc.devRef .tc main_arg1))⟩] concatenates_S100000x32_S100000x32_S100000x64_d1) (broadcastInDim S1600000x1 ![0] bcast_S1600000_S1600000x1_0 (select (cmpi .slt (shapeCast _ (extractStridedSlice S1x1600000 ![1, 0] (launchContents m c (Proc.devRef .tc main_arg2)) slices_S2x1600000_S1x1600000_1_0) shapeCasts_S1x1600000_S1600000) (broadcastInDim S1600000 ![] bcast_S_S1600000 (constantI S_ 32 0#32))) (addi (shapeCast _ (extractStridedSlice S1x1600000 ![1, 0] (launchContents m c (Proc.devRef .tc main_arg2)) slices_S2x1600000_S1x1600000_1_0) shapeCasts_S1x1600000_S1600000) (broadcastInDim S1600000 ![] bcast_S_S1600000 (constantI S_ 32 100000#32))) (shapeCast _ (extractStridedSlice S1x1600000 ![1, 0] (launchContents m c (Proc.devRef .tc main_arg2)) slices_S2x1600000_S1x1600000_1_0) shapeCasts_S1x1600000_S1600000)))) (Host.gather gather_S100000x64_S1600000x1_S1600000x64_1_0_n_n_0_1_164 (concatenate S100000x64 1 [⟨S100000x32, (launchContents m c (Proc.devRef .tc main_arg0))⟩, ⟨S100000x32, (launchContents m c (Proc.devRef .tc main_arg1))⟩] concatenates_S100000x32_S100000x32_S100000x64_d1) (broadcastInDim S1600000x1 ![0] bcast_S1600000_S1600000x1_0 (select (cmpi .slt (shapeCast _ (extractStridedSlice S1x1600000 ![0, 0] (launchContents m c (Proc.devRef .tc main_arg2)) slices_S2x1600000_S1x1600000_0_0) shapeCasts_S1x1600000_S1600000) (broadcastInDim S1600000 ![] bcast_S_S1600000 (constantI S_ 32 0#32))) (addi (shapeCast _ (extractStridedSlice S1x1600000 ![0, 0] (launchContents m c (Proc.devRef .tc main_arg2)) slices_S2x1600000_S1x1600000_0_0) shapeCasts_S1x1600000_S1600000) (broadcastInDim S1600000 ![] bcast_S_S1600000 (constantI S_ 32 100000#32))) (shapeCast _ (extractStridedSlice S1x1600000 ![0, 0] (launchContents m c (Proc.devRef .tc main_arg2)) slices_S2x1600000_S1x1600000_0_0) shapeCasts_S1x1600000_S1600000)))) (launchContents m c (Proc.devRef .tc main_arg3)) (launchContents m c (Proc.devRef .tc main_arg4)) (launchContents m c (Proc.devRef .tc main_arg5)) (launchContents m c (Proc.devRef .tc main_arg6)))) (launchContents m c (Proc.devRef .tc main_arg7)) (launchContents m c (Proc.devRef .tc main_arg8)) (launchContents m c (Proc.devRef .tc main_arg9)) (launchContents m c (Proc.devRef .tc main_arg10)) (launchContents m c (Proc.devRef .tc main_arg11)) (launchContents m c (Proc.devRef .tc main_arg12)) := by
  rw [ops_cut, StableHlo.after_append, StableHlo.after_append, s3_result, s2_sum,
    s2_keep_main_v0, s2_keep_main_arg7, s2_keep_main_arg8, s2_keep_main_arg9, s2_keep_main_arg10, s2_keep_main_arg11, s2_keep_main_arg12,
    s1_feat, s1_tgtIdx, s1_featTgt, s1_featSrc,
    s1_keep_main_arg3, s1_keep_main_arg4, s1_keep_main_arg5, s1_keep_main_arg6, s1_keep_main_arg7, s1_keep_main_arg8, s1_keep_main_arg9, s1_keep_main_arg10, s1_keep_main_arg11, s1_keep_main_arg12]

/-- The same fold at the extended reals, as the specification's perceptron with its head, of the node features and
    the summed messages. -/
theorem res_spec (m : (ℓ : Loc nD τ sig) → Buf (Elt Ideal) ℓ) (c : Dev nD) :
    StableHlo.after ops (launchContents m c) (Proc.devRef .tc main_v45) =
    Spec.head (concatenate S100000x64 1 [⟨S100000x32, (m ((c.tc : Thread nD τ).loc main_arg0))⟩, ⟨S100000x32, (m ((c.tc : Thread nD τ).loc main_arg1))⟩] concatenates_S100000x32_S100000x32_S100000x64_d1) (Host.scatterAdd (F := Ideal) (φ := .f32) scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (shapeCast _ (extractStridedSlice S1x1600000 ![1, 0] (m ((c.tc : Thread nD τ).loc main_arg2)) slices_S2x1600000_S1x1600000_1_0) shapeCasts_S1x1600000_S1600000)) (Spec.mlp (Host.gather gather_S100000x64_S1600000x1_S1600000x64_1_0_n_n_0_1_164 (concatenate S100000x64 1 [⟨S100000x32, (m ((c.tc : Thread nD τ).loc main_arg0))⟩, ⟨S100000x32, (m ((c.tc : Thread nD τ).loc main_arg1))⟩] concatenates_S100000x32_S100000x32_S100000x64_d1) (broadcastInDim S1600000x1 ![0] bcast_S1600000_S1600000x1_0 (select (cmpi .slt (shapeCast _ (extractStridedSlice S1x1600000 ![1, 0] (m ((c.tc : Thread nD τ).loc main_arg2)) slices_S2x1600000_S1x1600000_1_0) shapeCasts_S1x1600000_S1600000) (broadcastInDim S1600000 ![] bcast_S_S1600000 (constantI S_ 32 0#32))) (addi (shapeCast _ (extractStridedSlice S1x1600000 ![1, 0] (m ((c.tc : Thread nD τ).loc main_arg2)) slices_S2x1600000_S1x1600000_1_0) shapeCasts_S1x1600000_S1600000) (broadcastInDim S1600000 ![] bcast_S_S1600000 (constantI S_ 32 100000#32))) (shapeCast _ (extractStridedSlice S1x1600000 ![1, 0] (m ((c.tc : Thread nD τ).loc main_arg2)) slices_S2x1600000_S1x1600000_1_0) shapeCasts_S1x1600000_S1600000)))) (Host.gather gather_S100000x64_S1600000x1_S1600000x64_1_0_n_n_0_1_164 (concatenate S100000x64 1 [⟨S100000x32, (m ((c.tc : Thread nD τ).loc main_arg0))⟩, ⟨S100000x32, (m ((c.tc : Thread nD τ).loc main_arg1))⟩] concatenates_S100000x32_S100000x32_S100000x64_d1) (broadcastInDim S1600000x1 ![0] bcast_S1600000_S1600000x1_0 (select (cmpi .slt (shapeCast _ (extractStridedSlice S1x1600000 ![0, 0] (m ((c.tc : Thread nD τ).loc main_arg2)) slices_S2x1600000_S1x1600000_0_0) shapeCasts_S1x1600000_S1600000) (broadcastInDim S1600000 ![] bcast_S_S1600000 (constantI S_ 32 0#32))) (addi (shapeCast _ (extractStridedSlice S1x1600000 ![0, 0] (m ((c.tc : Thread nD τ).loc main_arg2)) slices_S2x1600000_S1x1600000_0_0) shapeCasts_S1x1600000_S1600000) (broadcastInDim S1600000 ![] bcast_S_S1600000 (constantI S_ 32 100000#32))) (shapeCast _ (extractStridedSlice S1x1600000 ![0, 0] (m ((c.tc : Thread nD τ).loc main_arg2)) slices_S2x1600000_S1x1600000_0_0) shapeCasts_S1x1600000_S1600000)))) (Spec.top (m ((c.tc : Thread nD τ).loc main_arg3))) (Spec.bot (m ((c.tc : Thread nD τ).loc main_arg3))) (m ((c.tc : Thread nD τ).loc main_arg4)) (m ((c.tc : Thread nD τ).loc main_arg5)) (m ((c.tc : Thread nD τ).loc main_arg6)))) (Spec.top (m ((c.tc : Thread nD τ).loc main_arg7))) (Spec.bot (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [res_named, Bridge.refUpd_eq, Bridge.refMsg_eq]

end Cert.ReferenceIdeal.RefValue

end
-- ==== Proof.lean ====
/-
  The certificate: the kernel program and the reference compute one function at the extended reals.

  The program is a message-passing step on a graph of 100000 nodes and 1600000 edges. Both programs join positions and
  velocities into node features, gather the features of each edge's target and source node, run a two-layer
  perceptron on the pair (the messages), sum the messages per target node, and run a second perceptron with a linear
  prediction head on the pair (node features, summed messages). The reference applies each perceptron's first layer as
  ONE product of the 128-column concatenation of the pair with the 128-row weight matrix; the kernel applies the
  upper 64 rows to the first array and the lower 64 rows to the second and adds. The two are equal because a sum over
  128 indices is the sum over the first 64 plus the sum over the last 64 — a law of any commutative additive monoid,
  so it holds on the extended reals with no finiteness assumption, and the precondition is never opened. Everything
  else (the gathers, the scatter-add, the index arithmetic) is the same operation on both sides and is carried along
  unopened.

  Kernel side: the two kernel calls are read as whole-array functions of the arrays they find (Region0, Region1, over
  the payload identities of Payload), threaded through the host operations between them (KernelValue). Reference
  side: the host program's fold read in three stretches (RefValue) and its two networks read index by index
  (RefBridge). Both meet at the specification's `Spec.head … (Spec.mlp …)` term of the argument arrays.
-/
import proofs.«152016_j53644141527375_1_alg».proof.Defs
import proofs.«152016_j53644141527375_1_alg».proof.Proof.Gen.Kernel
import proofs.«152016_j53644141527375_1_alg».proof.Proof.Gen.Kernel.Frame
import proofs.«152016_j53644141527375_1_alg».proof.Proof.Gen.KernelIdeal
import proofs.«152016_j53644141527375_1_alg».proof.Proof.Gen.KernelIdeal.Frame
import proofs.«152016_j53644141527375_1_alg».proof.Proof.Gen.ReferenceIdeal
import proofs.«152016_j53644141527375_1_alg».proof.Proof.Gen.Pre_finite_inputs
import proofs.«152016_j53644141527375_1_alg».proof.Proof.KernelValue
import proofs.«152016_j53644141527375_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- From memories that agree on the arguments both programs end with the result array at the specification's
    perceptron-with-head of the node features and the summed messages. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6, h7, h8, h9, h10, h11, h12⟩ := hagree c
  rw [Cert.ReferenceIdeal.RefValue.res_spec, h0, h1, h2, h3, h4, h5, h6, h7, h8, h9, h10, h11, h12]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
